-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S300000 : Shape := ⟨1, ![300000]⟩
abbrev S256x256 : Shape := ⟨2, ![256, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg20 : FVec F S256 .f32) (main_arg21 : FVec F S256x2 .f32) (main_arg22 : FVec F S2 .f32) (main_v63 : IVec S_ 1) (main_v67 : IVec S_ 1) : IVec S_ 1 :=
  let main_v68 : IVec S_ 1 := andi main_v63 main_v67
  let main_v69 : FVec F S256 .f32 := Host.absf main_arg20
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x2 .f32 := Host.absf main_arg21
  let main_cst_28 : FVec F S_ .f32 := constant S_ .f32 0x7F800000#32
  let main_v75 : FVec F S256x2 .f32 := broadcastInDim S256x2 ![] bcast_S_S256x2 main_cst_28
  let main_v76 : IVec S256x2 1 := cmpf .olt main_v74 main_v75
  let main_c_29 : IVec S_ 1 := constantI S_ 1 1#1
  let main_v77 : IVec S_ 1 := (fun x v => Host.reduce IntOp.andi x v reducesTo_S256x2_S_d0_1 h_S_) main_v76 main_c_29
  let main_v78 : IVec S_ 1 := andi main_v73 main_v77
  let main_v79 : FVec F S2 .f32 := Host.absf main_arg22
  let main_cst_30 : FVec F S_ .f32 := constant S_ .f32 0x7F800000#32
  let main_v80 : FVec F S2 .f32 := broadcastInDim S2 ![] bcast_S_S2 main_cst_30
  let main_v81 : IVec S2 1 := cmpf .olt main_v79 main_v80
  let main_c_31 : IVec S_ 1 := constantI S_ 1 1#1
  let main_v82 : IVec S_ 1 := (fun x v => Host.reduce IntOp.andi x v reducesTo_S2_S_d0 h_S_) main_v81 main_c_31
  let main_v83 : IVec S_ 1 := andi main_v78 main_v82
  main_v83

def fn_part3 {F : FTy → Type} [FloatOps F] (main_arg17 : FVec F S256 .f32) (main_arg18 : FVec F S256x256 .f32) (main_arg19 : FVec F S256x256 .f32) (main_arg20 : FVec F S256 .f32) (main_arg21 : FVec F S256x2 .f32) (main_arg22 : FVec F S2 .f32) (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  let main_v54 : FVec F S256 .f32 := Host.absf main_arg17
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256x256 .f32 := Host.absf main_arg18
  let main_cst_22 : FVec F S_ .f32 := constant S_ .f32 0x7F800000#32
  let main_v60 : FVec F S256x256 .f32 := broadcastInDim S256x256 ![] bcast_S_S256x256 main_cst_22
  let main_v61 : IVec S256x256 1 := cmpf .olt main_v59 main_v60
  let main_c_23 : IVec S_ 1 := constantI S_ 1 1#1
  let main_v62 : IVec S_ 1 := (fun x v => Host.reduce IntOp.andi x v reducesTo_S256x256_S_d0_1 h_S_) main_v61 main_c_23
  let main_v63 : IVec S_ 1 := andi main_v58 main_v62
  let main_v64 : FVec F S256x256 .f32 := Host.absf main_arg19
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg20 main_arg21 main_arg22 main_v63 main_v67

def fn_part2 {F : FTy → Type} [FloatOps F] (main_arg13 : FVec F S256x256 .f32) (main_arg14 : FVec F S256 .f32) (main_arg15 : FVec F S256x256 .f32) (main_arg16 : FVec F S256x256 .f32) (main_arg17 : FVec F S256 .f32) (main_arg18 : FVec F S256x256 .f32) (main_arg19 : FVec F S256x256 .f32) (main_arg20 : FVec F S256 .f32) (main_arg21 : FVec F S256x2 .f32) (main_arg22 : FVec F S2 .f32) (main_v33 : IVec S_ 1) : IVec S_ 1 :=
  let main_v34 : FVec F S256x256 .f32 := Host.absf main_arg13
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg14
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x256 .f32 := Host.absf main_arg15
  let main_cst_16 : FVec F S_ .f32 := constant S_ .f32 0x7F800000#32
  let main_v45 : FVec F S256x256 .f32 := broadcastInDim S256x256 ![] bcast_S_S256x256 main_cst_16
  let main_v46 : IVec S256x256 1 := cmpf .olt main_v44 main_v45
  let main_c_17 : IVec S_ 1 := constantI S_ 1 1#1
  let main_v47 : IVec S_ 1 := (fun x v => Host.reduce IntOp.andi x v reducesTo_S256x256_S_d0_1 h_S_) main_v46 main_c_17
  let main_v48 : IVec S_ 1 := andi main_v43 main_v47
  let main_v49 : FVec F S256x256 .f32 := Host.absf main_arg16
  let main_cst_18 : FVec F S_ .f32 := constant S_ .f32 0x7F800000#32
  let main_v50 : FVec F S256x256 .f32 := broadcastInDim S256x256 ![] bcast_S_S256x256 main_cst_18
  fn_part3 (F := F) main_arg17 main_arg18 main_arg19 main_arg20 main_arg21 main_arg22 main_v48 main_v49 main_v50

def fn_part1 {F : FTy → Type} [FloatOps F] (main_arg10 : FVec F S256x256 .f32) (main_arg11 : FVec F S256 .f32) (main_arg12 : FVec F S256x256 .f32) (main_arg13 : FVec F S256x256 .f32) (main_arg14 : FVec F S256 .f32) (main_arg15 : FVec F S256x256 .f32) (main_arg16 : FVec F S256x256 .f32) (main_arg17 : FVec F S256 .f32) (main_arg18 : FVec F S256x256 .f32) (main_arg19 : FVec F S256x256 .f32) (main_arg20 : FVec F S256 .f32) (main_arg21 : FVec F S256x2 .f32) (main_arg22 : FVec F S2 .f32) (main_v13 : IVec S_ 1) (main_v16 : IVec S50000x256 1) : IVec S_ 1 :=
  let main_c_5 : IVec S_ 1 := constantI S_ 1 1#1
  let main_v17 : IVec S_ 1 := (fun x v => Host.reduce IntOp.andi x v reducesTo_S50000x256_S_d0_1 h_S_) main_v16 main_c_5
  let main_v18 : IVec S_ 1 := andi main_v13 main_v17
  let main_v19 : FVec F S256x256 .f32 := Host.absf main_arg10
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg11
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg12
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg13 main_arg14 main_arg15 main_arg16 main_arg17 main_arg18 main_arg19 main_arg20 main_arg21 main_arg22 main_v33

def fn {F : FTy → Type} [FloatOps F] (main_arg0 : FVec F S50000x256 .f32) (main_arg1 : FVec F S50000x256 .f32) (main_arg2 : FVec F S50000x256 .f32) (main_arg3 : FVec F S50000x256 .f32) (main_arg4 : IVec S300000 32) (main_arg5 : IVec S300000 32) (main_arg6 : IVec S300000 32) (main_arg7 : IVec S300000 32) (main_arg8 : IVec S300000 32) (main_arg9 : IVec S300000 32) (main_arg10 : FVec F S256x256 .f32) (main_arg11 : FVec F S256 .f32) (main_arg12 : FVec F S256x256 .f32) (main_arg13 : FVec F S256x256 .f32) (main_arg14 : FVec F S256 .f32) (main_arg15 : FVec F S256x256 .f32) (main_arg16 : FVec F S256x256 .f32) (main_arg17 : FVec F S256 .f32) (main_arg18 : FVec F S256x256 .f32) (main_arg19 : FVec F S256x256 .f32) (main_arg20 : FVec F S256 .f32) (main_arg21 : FVec F S256x2 .f32) (main_arg22 : FVec F S2 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S50000x256 .f32 := Host.absf main_arg1
  let main_cst_0 : FVec F S_ .f32 := constant S_ .f32 0x7F800000#32
  let main_v5 : FVec F S50000x256 .f32 := broadcastInDim S50000x256 ![] bcast_S_S50000x256 main_cst_0
  let main_v6 : IVec S50000x256 1 := cmpf .olt main_v4 main_v5
  let main_c_1 : IVec S_ 1 := constantI S_ 1 1#1
  let main_v7 : IVec S_ 1 := (fun x v => Host.reduce IntOp.andi x v reducesTo_S50000x256_S_d0_1 h_S_) main_v6 main_c_1
  let main_v8 : IVec S_ 1 := andi main_v3 main_v7
  let main_v9 : FVec F S50000x256 .f32 := Host.absf main_arg2
  let main_cst_2 : FVec F S_ .f32 := constant S_ .f32 0x7F800000#32
  let main_v10 : FVec F S50000x256 .f32 := broadcastInDim S50000x256 ![] bcast_S_S50000x256 main_cst_2
  let main_v11 : IVec S50000x256 1 := cmpf .olt main_v9 main_v10
  let main_c_3 : IVec S_ 1 := constantI S_ 1 1#1
  let main_v12 : IVec S_ 1 := (fun x v => Host.reduce IntOp.andi x v reducesTo_S50000x256_S_d0_1 h_S_) main_v11 main_c_3
  let main_v13 : IVec S_ 1 := andi main_v8 main_v12
  let main_v14 : FVec F S50000x256 .f32 := Host.absf main_arg3
  let main_cst_4 : FVec F S_ .f32 := constant S_ .f32 0x7F800000#32
  let main_v15 : FVec F S50000x256 .f32 := broadcastInDim S50000x256 ![] bcast_S_S50000x256 main_cst_4
  let main_v16 : IVec S50000x256 1 := cmpf .olt main_v14 main_v15
  fn_part1 (F := F) main_arg10 main_arg11 main_arg12 main_arg13 main_arg14 main_arg15 main_arg16 main_arg17 main_arg18 main_arg19 main_arg20 main_arg21 main_arg22 main_v13 main_v16
-- ==== Kernel.lean ====
abbrev S50000x256 : Shape := ⟨2, ![50000, 256]⟩
abbrev S300000 : Shape := ⟨1, ![300000]⟩
abbrev S256x256 : Shape := ⟨2, ![256, 256]⟩
abbrev S256 : Shape := ⟨1, ![256]⟩
abbrev S256x2 : Shape := ⟨2, ![256, 2]⟩
abbrev S2 : Shape := ⟨1, ![2]⟩
abbrev S_ : Shape := ⟨0, ![]⟩
abbrev S300000x1 : Shape := ⟨2, ![300000, 1]⟩
abbrev S300000x256 : Shape := ⟨2, ![300000, 256]⟩
abbrev S1x256 : Shape := ⟨2, ![1, 256]⟩
abbrev S1x2 : Shape := ⟨2, ![1, 2]⟩
abbrev S50000x2 : Shape := ⟨2, ![50000, 2]⟩
abbrev S2000x256 : Shape := ⟨2, ![2000, 256]⟩
abbrev S2000x2 : Shape := ⟨2, ![2000, 2]⟩

abbrev nBuf : Space → Nat
  | .hbm => 68
  | .vmem => 23
  | .smem => 0
  | _ => 0

abbrev bufTy : (tb : Table) → Fin (tcTables nBuf tb) → BufTy
  | .hbm, ⟨0, _⟩ => ⟨S50000x256, .f32⟩
  | .hbm, ⟨1, _⟩ => ⟨S50000x256, .f32⟩
  | .hbm, ⟨2, _⟩ => ⟨S50000x256, .f32⟩
  | .hbm, ⟨3, _⟩ => ⟨S50000x256, .f32⟩
  | .hbm, ⟨4, _⟩ => ⟨S300000, .i32⟩
  | .hbm, ⟨5, _⟩ => ⟨S300000, .i32⟩
  | .hbm, ⟨6, _⟩ => ⟨S300000, .i32⟩
  | .hbm, ⟨7, _⟩ => ⟨S300000, .i32⟩
  | .hbm, ⟨8, _⟩ => ⟨S300000, .i32⟩
  | .hbm, ⟨9, _⟩ => ⟨S300000, .i32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256x256, .f32⟩
  | .hbm, ⟨17, _⟩ => ⟨S256, .f32⟩
  | .hbm, ⟨18, _⟩ => ⟨S256x256, .f32⟩
  | .hbm, ⟨19, _⟩ => ⟨S256x256, .f32⟩
  | .hbm, ⟨20, _⟩ => ⟨S256, .f32⟩
  | .hbm, ⟨21, _⟩ => ⟨S256x2, .f32⟩
  | .hbm, ⟨22, _⟩ => ⟨S2, .f32⟩
  | .hbm, ⟨23, _⟩ => ⟨S_, .i32⟩
  | .hbm, ⟨24, _⟩ => ⟨S300000, .i32⟩
  | .hbm, ⟨25, _⟩ => ⟨S300000, .i1⟩
  | .hbm, ⟨26, _⟩ => ⟨S_, .i32⟩
  | .hbm, ⟨27, _⟩ => ⟨S300000, .i32⟩
  | .hbm, ⟨28, _⟩ => ⟨S300000, .i32⟩
  | .hbm, ⟨29, _⟩ => ⟨S300000, .i32⟩
  | .hbm, ⟨30, _⟩ => ⟨S300000x1, .i32⟩
  | .hbm, ⟨31, _⟩ => ⟨S300000x256, .f32⟩
  | .hbm, ⟨32, _⟩ => ⟨S_, .f32⟩
  | .hbm, ⟨33, _⟩ => ⟨S50000x256, .f32⟩
  | .hbm, ⟨34, _⟩ => ⟨S300000x1, .i32⟩
  | .hbm, ⟨35, _⟩ => ⟨S50000x256, .f32⟩
  | .hbm, ⟨36, _⟩ => ⟨S_, .i32⟩
  | .hbm, ⟨37, _⟩ => ⟨S300000, .i32⟩
  | .hbm, ⟨38, _⟩ => ⟨S300000, .i1⟩
  | .hbm, ⟨39, _⟩ => ⟨S_, .i32⟩
  | .hbm, ⟨40, _⟩ => ⟨S300000, .i32⟩
  | .hbm, ⟨41, _⟩ => ⟨S300000, .i32⟩
  | .hbm, ⟨42, _⟩ => ⟨S300000, .i32⟩
  | .hbm, ⟨43, _⟩ => ⟨S300000x1, .i32⟩
  | .hbm, ⟨44, _⟩ => ⟨S300000x256, .f32⟩
  | .hbm, ⟨45, _⟩ => ⟨S_, .f32⟩
  | .hbm, ⟨46, _⟩ => ⟨S50000x256, .f32⟩
  | .hbm, ⟨47, _⟩ => ⟨S300000x1, .i32⟩
  | .hbm, ⟨48, _⟩ => ⟨S50000x256, .f32⟩
  | .hbm, ⟨49, _⟩ => ⟨S_, .i32⟩
  | .hbm, ⟨50, _⟩ => ⟨S300000, .i32⟩
  | .hbm, ⟨51, _⟩ => ⟨S300000, .i1⟩
  | .hbm, ⟨52, _⟩ => ⟨S_, .i32⟩
  | .hbm, ⟨53, _⟩ => ⟨S300000, .i32⟩
  | .hbm, ⟨54, _⟩ => ⟨S300000, .i32⟩
  | .hbm, ⟨55, _⟩ => ⟨S300000, .i32⟩
  | .hbm, ⟨56, _⟩ => ⟨S300000x1, .i32⟩
  | .hbm, ⟨57, _⟩ => ⟨S300000x256, .f32⟩
  | .hbm, ⟨58, _⟩ => ⟨S_, .f32⟩
  | .hbm, ⟨59, _⟩ => ⟨S50000x256, .f32⟩
  | .hbm, ⟨60, _⟩ => ⟨S300000x1, .i32⟩
  | .hbm, ⟨61, _⟩ => ⟨S50000x256, .f32⟩
  | .hbm, ⟨62, _⟩ => ⟨S1x256, .f32⟩
  | .hbm, ⟨63, _⟩ => ⟨S1x256, .f32⟩
  | .hbm, ⟨64, _⟩ => ⟨S1x256, .f32⟩
  | .hbm, ⟨65, _⟩ => ⟨S1x256, .f32⟩
  | .hbm, ⟨66, _⟩ => ⟨S1x2, .f32⟩
  | .hbm, ⟨67, _⟩ => ⟨S50000x2, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S256x256, .f32⟩
  | .local _ .vmem, ⟨9, _⟩ => ⟨S1x256, .f32⟩
  | .local _ .vmem, ⟨10, _⟩ => ⟨S256x256, .f32⟩
  | .local _ .vmem, ⟨11, _⟩ => ⟨S256x256, .f32⟩
  | .local _ .vmem, ⟨12, _⟩ => ⟨S1x256, .f32⟩
  | .local _ .vmem, ⟨13, _⟩ => ⟨S256x256, .f32⟩
  | .local _ .vmem, ⟨14, _⟩ => ⟨S256x256, .f32⟩
  | .local _ .vmem, ⟨15, _⟩ => ⟨S1x256, .f32⟩
  | .local _ .vmem, ⟨16, _⟩ => ⟨S256x256, .f32⟩
  | .local _ .vmem, ⟨17, _⟩ => ⟨S256x256, .f32⟩
  | .local _ .vmem, ⟨18, _⟩ => ⟨S1x256, .f32⟩
  | .local _ .vmem, ⟨19, _⟩ => ⟨S256x2, .f32⟩
  | .local _ .vmem, ⟨20, _⟩ => ⟨S1x2, .f32⟩
  | .local _ .vmem, ⟨21, _⟩ => ⟨S2000x2, .f32⟩
  | .local _ .vmem, ⟨22, _⟩ => ⟨S2000x2, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_v0 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_c_1 : Ref sig .tc := ⟨.hbm, 36, rfl⟩
abbrev main_v10 : Ref sig .tc := ⟨.hbm, 37, rfl⟩
abbrev main_v11 : Ref sig .tc := ⟨.hbm, 38, rfl⟩
abbrev main_c_2 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_cst_3 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_v21 : Ref sig .tc := ⟨.hbm, 51, rfl⟩
abbrev main_c_5 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_cst_6 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg15_0 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg17_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem16_0 : DmaSem sig := 20
abbrev cc0_sem17_0 : DmaSem sig := 21
abbrev cc0_sem17_1 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S256x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x2 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x2 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S2000x2 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  bcast_S_S300000 : S_.BroadcastsInDim S300000 (![] : Fin 0 → Fin S300000.rank)
  bcast_S300000_S300000x1_0 : S300000.BroadcastsInDim S300000x1 (![0] : Fin 1 → Fin S300000x1.rank)
  bcast_S_S50000x256 : S_.BroadcastsInDim S50000x256 (![] : Fin 0 → Fin S50000x256.rank)
  shapeCasts_S256_S1x256 : S256.ShapeCasts S1x256
  shapeCasts_S2_S1x2 : S2.ShapeCasts S1x2
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x2_S256x2_0_0 : ∀ a, (![0, 0] : Fin 2 → Nat) a + S256x2.size a ≤ S256x2.size a
  h_S256x2 : 0 < S256x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  dot_S2000x256_S256x256_S2000x256_1_0_0_1_n_n_wf : DotDims.WF S2000x256 S256x256 S2000x256 [1] [0] [0] [1] [] []
  dot_S2000x256_S256x2_S2000x2_1_0_0_1_n_n_wf : DotDims.WF S2000x256 S256x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x256.size a ≤ S256x256.size a
  hwx0_6 : ∀ i : grid0.Coords, EltTy.bits .f32 = 32 ∨ (Rect.block (s := S256x256) S256x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .f32 = 32 ∨ (Rect.block (s := S256x256) S256x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x256.size a
  hwx0_9 : ∀ i : grid0.Coords, EltTy.bits .f32 = 32 ∨ (Rect.block (s := S256x256) S256x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x256.size a ≤ S256x256.size a
  hwx0_10 : ∀ i : grid0.Coords, EltTy.bits .f32 = 32 ∨ (Rect.block (s := S256x256) S256x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x256.size a
  hwx0_11 : ∀ i : grid0.Coords, EltTy.bits .f32 = 32 ∨ (Rect.block (s := S1x256) S1x256.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256x256.size a ≤ S256x256.size a
  hwx0_12 : ∀ i : grid0.Coords, EltTy.bits .f32 = 32 ∨ (Rect.block (s := S256x256) S256x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S256x256.size a ≤ S256x256.size a
  hwx0_13 : ∀ i : grid0.Coords, EltTy.bits .f32 = 32 ∨ (Rect.block (s := S256x256) S256x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x2.size a ≤ S256x2.size a
  hwx0_15 : ∀ i : grid0.Coords, EltTy.bits .f32 = 32 ∨ (Rect.block (s := S256x2) S256x2.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x2.size a ≤ S1x2.size a
  hwx0_16 : ∀ i : grid0.Coords, EltTy.bits .f32 = 32 ∨ (Rect.block (s := S1x2) S1x2.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2000x2.size a ≤ S50000x2.size a
  hwx0_17 : ∀ i : grid0.Coords, EltTy.bits .f32 = 32 ∨ (Rect.block (s := S50000x2) S2000x2.size (cc0_transform_17 i) (hinb0_17 i)).WholeWords (EltTy.packing .f32)

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x2_S2000x2_1_0_0_1_n_n : DotDims S2000x256 S256x2 S2000x2 where
  lhsContracting := [1]
  rhsContracting := [0]
  lhsNonContracting := [0]
  rhsNonContracting := [1]
  lhsBatch := []
  rhsBatch := []
  wf := dot_S2000x256_S256x2_S2000x2_1_0_0_1_n_n_wf

abbrev win0_0 : Pipeline.Window sig grid0 :=
  Pipeline.Window.ofSpec (Memref.whole main_v9) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2000x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg10) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v30) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg12) S256x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg13) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg15) S256x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg16) S256x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v32) S1x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg18) S256x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg19) S256x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v33) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg21) S256x2.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v34) S1x2.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v35) S2000x2.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S50000x256 : Shape := ⟨2, ![50000, 256]⟩
abbrev S300000 : Shape := ⟨1, ![300000]⟩
abbrev S256x256 : Shape := ⟨2, ![256, 256]⟩
abbrev S256 : Shape := ⟨1, ![256]⟩
abbrev S256x2 : Shape := ⟨2, ![256, 2]⟩
abbrev S2 : Shape := ⟨1, ![2]⟩
abbrev S_ : Shape := ⟨0, ![]⟩
abbrev S300000x1 : Shape := ⟨2, ![300000, 1]⟩
abbrev S300000x256 : Shape := ⟨2, ![300000, 256]⟩
abbrev S1x256 : Shape := ⟨2, ![1, 256]⟩
abbrev S50000x2 : Shape := ⟨2, ![50000, 2]⟩
abbrev S1x2 : Shape := ⟨2, ![1, 2]⟩

abbrev nBuf : Space → Nat
  | .hbm => 93
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S50000x256, .f32⟩
  | .hbm, ⟨2, _⟩ => ⟨S50000x256, .f32⟩
  | .hbm, ⟨3, _⟩ => ⟨S50000x256, .f32⟩
  | .hbm, ⟨4, _⟩ => ⟨S300000, .i32⟩
  | .hbm, ⟨5, _⟩ => ⟨S300000, .i32⟩
  | .hbm, ⟨6, _⟩ => ⟨S300000, .i32⟩
  | .hbm, ⟨7, _⟩ => ⟨S300000, .i32⟩
  | .hbm, ⟨8, _⟩ => ⟨S300000, .i32⟩
  | .hbm, ⟨9, _⟩ => ⟨S300000, .i32⟩
  | .hbm, ⟨10, _⟩ => ⟨S256x256, .f32⟩
  | .hbm, ⟨11, _⟩ => ⟨S256, .f32⟩
  | .hbm, ⟨12, _⟩ => ⟨S256x256, .f32⟩
  | .hbm, ⟨13, _⟩ => ⟨S256x256, .f32⟩
  | .hbm, ⟨14, _⟩ => ⟨S256, .f32⟩
  | .hbm, ⟨15, _⟩ => ⟨S256x256, .f32⟩
  | .hbm, ⟨16, _⟩ => ⟨S256x256, .f32⟩
  | .hbm, ⟨17, _⟩ => ⟨S256, .f32⟩
  | .hbm, ⟨18, _⟩ => ⟨S256x256, .f32⟩
  | .hbm, ⟨19, _⟩ => ⟨S256x256, .f32⟩
  | .hbm, ⟨20, _⟩ => ⟨S256, .f32⟩
  | .hbm, ⟨21, _⟩ => ⟨S256x2, .f32⟩
  | .hbm, ⟨22, _⟩ => ⟨S2, .f32⟩
  | .hbm, ⟨23, _⟩ => ⟨S_, .i32⟩
  | .hbm, ⟨24, _⟩ => ⟨S300000, .i32⟩
  | .hbm, ⟨25, _⟩ => ⟨S300000, .i1⟩
  | .hbm, ⟨26, _⟩ => ⟨S_, .i32⟩
  | .hbm, ⟨27, _⟩ => ⟨S300000, .i32⟩
  | .hbm, ⟨28, _⟩ => ⟨S300000, .i32⟩
  | .hbm, ⟨29, _⟩ => ⟨S300000, .i32⟩
  | .hbm, ⟨30, _⟩ => ⟨S300000x1, .i32⟩
  | .hbm, ⟨31, _⟩ => ⟨S300000x256, .f32⟩
  | .hbm, ⟨32, _⟩ => ⟨S_, .f32⟩
  | .hbm, ⟨33, _⟩ => ⟨S50000x256, .f32⟩
  | .hbm, ⟨34, _⟩ => ⟨S300000x1, .i32⟩
  | .hbm, ⟨35, _⟩ => ⟨S50000x256, .f32⟩
  | .hbm, ⟨36, _⟩ => ⟨S50000x256, .f32⟩
  | .hbm, ⟨37, _⟩ => ⟨S1x256, .f32⟩
  | .hbm, ⟨38, _⟩ => ⟨S50000x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S_, .i32⟩
  | .hbm, ⟨43, _⟩ => ⟨S300000, .i32⟩
  | .hbm, ⟨44, _⟩ => ⟨S300000, .i1⟩
  | .hbm, ⟨45, _⟩ => ⟨S_, .i32⟩
  | .hbm, ⟨46, _⟩ => ⟨S300000, .i32⟩
  | .hbm, ⟨47, _⟩ => ⟨S300000, .i32⟩
  | .hbm, ⟨48, _⟩ => ⟨S300000, .i32⟩
  | .hbm, ⟨49, _⟩ => ⟨S300000x1, .i32⟩
  | .hbm, ⟨50, _⟩ => ⟨S300000x256, .f32⟩
  | .hbm, ⟨51, _⟩ => ⟨S_, .f32⟩
  | .hbm, ⟨52, _⟩ => ⟨S50000x256, .f32⟩
  | .hbm, ⟨53, _⟩ => ⟨S300000x1, .i32⟩
  | .hbm, ⟨54, _⟩ => ⟨S50000x256, .f32⟩
  | .hbm, ⟨55, _⟩ => ⟨S50000x256, .f32⟩
  | .hbm, ⟨56, _⟩ => ⟨S1x256, .f32⟩
  | .hbm, ⟨57, _⟩ => ⟨S50000x256, .f32⟩
  | .hbm, ⟨58, _⟩ => ⟨S50000x256, .f32⟩
  | .hbm, ⟨59, _⟩ => ⟨S50000x256, .f32⟩
  | .hbm, ⟨60, _⟩ => ⟨S50000x256, .f32⟩
  | .hbm, ⟨61, _⟩ => ⟨S50000x256, .f32⟩
  | .hbm, ⟨62, _⟩ => ⟨S_, .i32⟩
  | .hbm, ⟨63, _⟩ => ⟨S300000, .i32⟩
  | .hbm, ⟨64, _⟩ => ⟨S300000, .i1⟩
  | .hbm, ⟨65, _⟩ => ⟨S_, .i32⟩
  | .hbm, ⟨66, _⟩ => ⟨S300000, .i32⟩
  | .hbm, ⟨67, _⟩ => ⟨S300000, .i32⟩
  | .hbm, ⟨68, _⟩ => ⟨S300000, .i32⟩
  | .hbm, ⟨69, _⟩ => ⟨S300000x1, .i32⟩
  | .hbm, ⟨70, _⟩ => ⟨S300000x256, .f32⟩
  | .hbm, ⟨71, _⟩ => ⟨S_, .f32⟩
  | .hbm, ⟨72, _⟩ => ⟨S50000x256, .f32⟩
  | .hbm, ⟨73, _⟩ => ⟨S300000x1, .i32⟩
  | .hbm, ⟨74, _⟩ => ⟨S50000x256, .f32⟩
  | .hbm, ⟨75, _⟩ => ⟨S50000x256, .f32⟩
  | .hbm, ⟨76, _⟩ => ⟨S1x256, .f32⟩
  | .hbm, ⟨77, _⟩ => ⟨S50000x256, .f32⟩
  | .hbm, ⟨78, _⟩ => ⟨S50000x256, .f32⟩
  | .hbm, ⟨79, _⟩ => ⟨S50000x256, .f32⟩
  | .hbm, ⟨80, _⟩ => ⟨S50000x256, .f32⟩
  | .hbm, ⟨81, _⟩ => ⟨S50000x256, .f32⟩
  | .hbm, ⟨82, _⟩ => ⟨S_, .f32⟩
  | .hbm, ⟨83, _⟩ => ⟨S50000x256, .f32⟩
  | .hbm, ⟨84, _⟩ => ⟨S50000x256, .f32⟩
  | .hbm, ⟨85, _⟩ => ⟨S50000x256, .f32⟩
  | .hbm, ⟨86, _⟩ => ⟨S1x256, .f32⟩
  | .hbm, ⟨87, _⟩ => ⟨S50000x256, .f32⟩
  | .hbm, ⟨88, _⟩ => ⟨S50000x256, .f32⟩
  | .hbm, ⟨89, _⟩ => ⟨S50000x2, .f32⟩
  | .hbm, ⟨90, _⟩ => ⟨S1x2, .f32⟩
  | .hbm, ⟨91, _⟩ => ⟨S50000x2, .f32⟩
  | .hbm, ⟨92, _⟩ => ⟨S50000x2, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_v0 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_cst : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_c_1 : Ref sig .tc := ⟨.hbm, 42, rfl⟩
abbrev main_v16 : Ref sig .tc := ⟨.hbm, 43, rfl⟩
abbrev main_v17 : Ref sig .tc := ⟨.hbm, 44, rfl⟩
abbrev main_c_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_3 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_c_4 : Ref sig .tc := ⟨.hbm, 62, rfl⟩
abbrev main_v33 : Ref sig .tc := ⟨.hbm, 63, rfl⟩
abbrev main_v34 : Ref sig .tc := ⟨.hbm, 64, rfl⟩
abbrev main_c_5 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_6 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_call0_cst : Ref sig .tc := ⟨.hbm, 82, rfl⟩
abbrev main_call0_v0 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩

abbrev nD : Nat := 1
abbrev τ : Topo := Topo.v7x

variable {F : FTy → Type} [FloatOps F]

class Facts₀ : Prop where
  bcast_S_S300000 : S_.BroadcastsInDim S300000 (![] : Fin 0 → Fin S300000.rank)
  bcast_S300000_S300000x1_0 : S300000.BroadcastsInDim S300000x1 (![0] : Fin 1 → Fin S300000x1.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  gather_S50000x256_S300000x1_S300000x256_1_0_n_n_0_1_1256_wf : GatherDims.WF S50000x256 S300000x1 S300000x256 [1] [0] [] [0] [] 1 ![1, 256]
  scatter_S50000x256_S300000x1_S300000x256_1_0_0_1_wf : ScatterDims.WF S50000x256 S300000x1 S300000x256 [1] [0] [0] 1
  dot_S50000x256_S256x256_S50000x256_1_0_0_1_n_n_wf : DotDims.WF S50000x256 S256x256 S50000x256 [1] [0] [0] [1] [] []
  dot_S50000x256_S256x2_S50000x2_1_0_0_1_n_n_wf : DotDims.WF S50000x256 S256x2 S50000x2 [1] [0] [0] [1] [] []

variable [Facts₀]

def gather_S50000x256_S300000x1_S300000x256_1_0_n_n_0_1_1256 : GatherDims S50000x256 S300000x1 S300000x256 where
  offsetDims := [1]
  collapsedSliceDims := [0]
  operandBatchingDims := []
  startIndicesBatchingDims := []
  startIndexMap := [0]
  indexVectorDim := 1
  sliceSizes := ![1, 256]
  wf := gather_S50000x256_S300000x1_S300000x256_1_0_n_n_0_1_1256_wf
def scatter_S50000x256_S300000x1_S300000x256_1_0_0_1 : ScatterDims S50000x256 S300000x1 S300000x256 where
  updateWindowDims := [1]
  insertedWindowDims := [0]
  scatterDimsToOperandDims := [0]
  indexVectorDim := 1
  wf := scatter_S50000x256_S300000x1_S300000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.Spec.lean ====
/-
  The network as ONE function of its inputs, in the host program's spelling.

  Three node types send messages to the target nodes. For one relation, every edge `e` carries the source row
  `x[src e]` (a negative index counted from the end, as jnp indexing does) and the rows arriving at the same target are
  summed: `agg x src dst`, a scatter-add of the gathered rows into zeros. A relation's output is
  `agg · W_rel + b_rel + x_tgt · W_root` (`conv`); the three outputs are added and rectified (`hidden`), and two more
  affine layers follow (`classify`). `net` is their composition: the reference's result, term for term.
-/
import proofs.«149418_j37460704756549_1_alg».proof.Proof.Gen.ReferenceIdeal
import Idealize.ShloMosaic.PureOps.Ideal

noncomputable section

namespace Cert.Hetero

open Idealize.ShloMosaic Cert.ReferenceIdeal Cert.ReferenceIdeal.Gen

/-- Node features, one row per node. -/
abbrev Nodes := FVec Ideal S50000x256 .f32
/-- One endpoint per edge. -/
abbrev Edges := (⟨S300000, .i32⟩ : BufTy).Contents (Elt Ideal)
abbrev Weight := FVec Ideal S256x256 .f32
abbrev Bias := FVec Ideal S256 .f32

/-- Row `r` of the result is the sum of `x[src e]` over the edges `e` with `dst e = r`. -/
def agg (x : Nodes) (src dst : Edges) : Nodes :=
  Host.scatterAdd (F := Ideal) scatter_S50000x256_S300000x1_S300000x256_1_0_0_1
    (broadcastInDim S50000x256 ![] bcast_S_S50000x256 (constant (F := Ideal) S_ .f32 0x00000000#32))
    (broadcastInDim S300000x1 ![0] bcast_S300000_S300000x1_0 dst)
    (Host.gather gather_S50000x256_S300000x1_S300000x256_1_0_n_n_0_1_1256 x
      (broadcastInDim S300000x1 ![0] bcast_S300000_S300000x1_0
        (select (cmpi .slt src (broadcastInDim S300000 ![] bcast_S_S300000 (constantI S_ 32 0#32)))
          (addi src (broadcastInDim S300000 ![] bcast_S_S300000 (constantI S_ 32 50000#32))) src)))

/-- A bias added to every row. -/
def biasRows (b : Bias) : Nodes :=
  broadcastInDim S50000x256 ![0, 1] bcast_S1x256_S50000x256_0_1 (broadcastInDim S1x256 ![1] bcast_S256_S1x256_1 b)

/-- One relation: `a · W_rel + b + x · W_root`. -/
def conv (a x : Nodes) (wrel : Weight) (b : Bias) (wroot : Weight) : Nodes :=
  addf (addf (Host.dotGeneral (F := Ideal) dot_S50000x256_S256x256_S50000x256_1_0_0_1_n_n none a wrel) (biasRows b))
    (Host.dotGeneral (F := Ideal) dot_S50000x256_S256x256_S50000x256_1_0_0_1_n_n none x wroot)

/-- The three relations summed, then `max(·, 0)`. -/
def hidden (c₁ c₂ c₃ : Nodes) : Nodes :=
  maximumf (addf (addf c₁ c₂) c₃) (broadcastInDim S50000x256 ![] bcast_S_S50000x256 (constant (F := Ideal) S_ .f32 0x00000000#32))

/-- `(h · W_mlp + b_mlp) · W_lin + b_lin`. -/
def classify (h : Nodes) (wmlp : Weight) (bmlp : Bias) (wlin : FVec Ideal S256x2 .f32) (blin : FVec Ideal S2 .f32) :
    FVec Ideal S50000x2 .f32 :=
  addf (Host.dotGeneral (F := Ideal) dot_S50000x256_S256x2_S50000x2_1_0_0_1_n_n none
      (addf (Host.dotGeneral (F := Ideal) dot_S50000x256_S256x256_S50000x256_1_0_0_1_n_n none h wmlp) (biasRows bmlp)) wlin)
    (broadcastInDim S50000x2 ![0, 1] bcast_S1x2_S50000x2_0_1 (broadcastInDim S1x2 ![1] bcast_S2_S1x2_1 blin))

/-- The whole network from the aggregated messages `a₀ a₁ a₂` and the target features `x`. -/
def dense (a₀ a₁ a₂ x : Nodes) (w₁₀ : Weight) (b₁₁ : Bias) (w₁₂ w₁₃ : Weight) (b₁₄ : Bias) (w₁₅ w₁₆ : Weight) (b₁₇ : Bias)
    (w₁₈ w₁₉ : Weight) (b₂₀ : Bias) (w₂₁ : FVec Ideal S256x2 .f32) (b₂₂ : FVec Ideal S2 .f32) : FVec Ideal S50000x2 .f32 :=
  classify (hidden (conv a₀ x w₁₀ b₁₁ w₁₂) (conv a₁ x w₁₃ b₁₄ w₁₅) (conv a₂ x w₁₆ b₁₇ w₁₈)) w₁₉ b₂₀ w₂₁ b₂₂

end Cert.Hetero

end
-- ==== Proof.LibRowBlock.lean ====
/-
  Row blocks of a matrix under operations that treat rows independently, at the exact instance.

  A matrix `a` with `B` rows IS THE `t`-TH ROW BLOCK of a matrix `A` with the same columns when
  `a (p, j) = A (B·t + p, j)` for every row `p` of the block. Every operation that computes row `r` of its
  result from rows `r` of its operands alone sends row blocks to row blocks: a column slice, a concatenation
  along the columns, a pointwise operation, a constant splat, a bias row added to every row, and a product with a
  matrix on the right (row `r` of `L·R` is `∑ₖ L(r,k)·R(k,·)`). The lemmas below say so, one per operation,
  with the whole-matrix side spelt as a host program spells it and the block side as a kernel body does.
-/
import Idealize.ShloMosaic.Lib.ValueIdx
import Idealize.ShloMosaic.Lib.ValueLayout
import Idealize.ShloMosaic.Lib.Pipeline.Value
import Idealize.ShloMosaic.PureOps.Ideal.Laws

noncomputable section

namespace Cert.RowBlock

open Idealize.ShloMosaic Idealize.ShloMosaic.ValueIdx

/-- `a` is rows `B·t, …, B·t + B − 1` of `A`. -/
def IsRows {α : Type} {N n : Nat} (B t : Nat) (A : (⟨2, ![N, n]⟩ : Shape).Idx → α) (a : (⟨2, ![B, n]⟩ : Shape).Idx → α) : Prop :=
  ∀ (p : Fin B) (j : Fin n) (r : Fin N), r.val = B * t + p.val → a (ix2 p j) = A (ix2 r j)

namespace IsRows

variable {α : Type} {N n B t : Nat}

/-! ## Layout -/

/-- Columns `o, …, o + m − 1` of a row block are the row block of those columns. -/
theorem slice {A : (⟨2, ![N, n]⟩ : Shape).Idx → α} {a : (⟨2, ![B, n]⟩ : Shape).Idx → α} (H : IsRows B t A a) (o m : Nat)
    (hA : (⟨2, ![N, n]⟩ : Shape).Slices ![0, o] ⟨2, ![N, m]⟩) (ha : (⟨2, ![B, n]⟩ : Shape).Slices ![0, o] ⟨2, ![B, m]⟩) :
    IsRows B t (extractStridedSlice ⟨2, ![N, m]⟩ ![0, o] A hA) (extractStridedSlice ⟨2, ![B, m]⟩ ![0, o] a ha) := by
  intro p j r hr
  rw [slice2_axis1_eq, slice2_axis1_eq]
  exact H p _ r hr

/-- A concatenation along the columns read at column `j`: piece `k`, whose columns start at `pre`, at column `j − pre`. -/
theorem concat_cols_apply {R n m : Nat} (xs : List ((s : Shape) × (s.Idx → α)))
    (h : Shape.Concatenates (xs.map (·.1)) ⟨2, ![R, n]⟩ 1)
    (k : Nat) (hk : k < xs.length) (x : (⟨2, ![R, m]⟩ : Shape).Idx → α) (hxk : xs[k] = ⟨⟨2, ![R, m]⟩, x⟩) (pre : Nat)
    (hpre : (((xs.take k).map (·.1)).map fun s => if h : s.rank = (⟨2, ![R, n]⟩ : Shape).rank
        then s.size ((1 : Fin (⟨2, ![R, n]⟩ : Shape).rank).cast h.symm) else 0).sum = pre)
    (r : Fin R) (j : Fin n) (j' : Fin m) (hj : pre + j'.val = j.val) :
    concatenate ⟨2, ![R, n]⟩ 1 xs h (ix2 r j) = x (ix2 r j') :=
  concatenate_apply_piece 1 xs h (ix2 r j) k hk _ x hxk rfl pre hpre (ix2 r j')
    (fun b hb => by
      match b with
      | ⟨0, _⟩ => rfl
      | ⟨1, _⟩ => exact absurd rfl hb) hj

/-- Two row blocks side by side are the row block of the two matrices side by side. -/
theorem concat2 {n₁ n₂ : Nat} {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    (H₁ : IsRows B t A₁ a₁) (H₂ : IsRows B t A₂ a₂) (hn : n = n₁ + n₂)
    (hA : Shape.Concatenates [(⟨2, ![N, n₁]⟩ : Shape), ⟨2, ![N, n₂]⟩] ⟨2, ![N, n]⟩ 1)
    (ha : Shape.Concatenates [(⟨2, ![B, n₁]⟩ : Shape), ⟨2, ![B, n₂]⟩] ⟨2, ![B, n]⟩ 1) :
    IsRows B t (concatenate ⟨2, ![N, n]⟩ 1 [⟨⟨2, ![N, n₁]⟩, A₁⟩, ⟨⟨2, ![N, n₂]⟩, A₂⟩] hA)
      (concatenate ⟨2, ![B, n]⟩ 1 [⟨⟨2, ![B, n₁]⟩, a₁⟩, ⟨⟨2, ![B, n₂]⟩, a₂⟩] ha) := by
  intro p j r hr
  by_cases hj : j.val < n₁
  · rw [concat_cols_apply [⟨⟨2, ![N, n₁]⟩, A₁⟩, ⟨⟨2, ![N, n₂]⟩, A₂⟩] hA 0 (by simp) A₁ rfl 0 rfl r j ⟨j.val, hj⟩ (Nat.zero_add _),
      concat_cols_apply [⟨⟨2, ![B, n₁]⟩, a₁⟩, ⟨⟨2, ![B, n₂]⟩, a₂⟩] ha 0 (by simp) a₁ rfl 0 rfl p j ⟨j.val, hj⟩ (Nat.zero_add _)]
    exact H₁ p _ r hr
  · have hj2 : j.val - n₁ < n₂ := by have := j.isLt; omega
    have hj3 : n₁ + (j.val - n₁) = j.val := by omega
    rw [concat_cols_apply [⟨⟨2, ![N, n₁]⟩, A₁⟩, ⟨⟨2, ![N, n₂]⟩, A₂⟩] hA 1 (by simp) A₂ rfl n₁ rfl r j ⟨j.val - n₁, hj2⟩ hj3,
      concat_cols_apply [⟨⟨2, ![B, n₁]⟩, a₁⟩, ⟨⟨2, ![B, n₂]⟩, a₂⟩] ha 1 (by simp) a₂ rfl n₁ rfl p j ⟨j.val - n₁, hj2⟩ hj3]
    exact H₂ p _ r hr

/-- Six row blocks side by side are the row block of the six matrices side by side. -/
theorem concat6 {n₁ n₂ n₃ n₄ n₅ n₆ : Nat}
    {A₁ : (⟨2, ![N, n₁]⟩ : Shape).Idx → α} {a₁ : (⟨2, ![B, n₁]⟩ : Shape).Idx → α}
    {A₂ : (⟨2, ![N, n₂]⟩ : Shape).Idx → α} {a₂ : (⟨2, ![B, n₂]⟩ : Shape).Idx → α}
    {A₃ : (⟨2, ![N, n₃]⟩ : Shape).Idx → α} {a₃ : (⟨2, ![B, n₃]⟩ : Shape).Idx → α}
    {A₄ : (⟨2, ![N, n₄]⟩ : Shape).Idx → α} {a₄ : (⟨2, ![B, n₄]⟩ : Shape).Idx → α}
    {A₅ : (⟨2, ![N, n₅]⟩ : Shape).Idx → α} {a₅ : (⟨2, ![B, n₅]⟩ : Shape).Idx → α}
    {A₆ : (⟨2, ![N, n₆]⟩ : Shape).Idx → α} {a₆ : (⟨2, ![B, n₆]⟩ : Shape).Idx → α}
    (H₁ : IsRows B t A₁ a₁) (H₂ : IsRows B t A₂ a₂) (H₃ : IsRows B t A₃ a₃) (H₄ : IsRows B t A₄ a₄)
    (H₅ : IsRows B t A₅ a₅) (H₆ : IsRows B t A₆ a₆) (hn : n = n₁ + n₂ + n₃ + n₄ + n₅ + n₆)
    (hA : Shape.Concatenates [(⟨2, ![N, n₁]⟩ : Shape), ⟨2, ![N, n₂]⟩, ⟨2, ![N, n₃]⟩, ⟨2, ![N, n₄]⟩, ⟨2, ![N, n₅]⟩, ⟨2, ![N, n₆]⟩] ⟨2, ![N, n]⟩ 1)
    (ha : Shape.Concatenates [(⟨2, ![B, n₁]⟩ : Shape), ⟨2, ![B, n₂]⟩, ⟨2, ![B, n₃]⟩, ⟨2, ![B, n₄]⟩, ⟨2, ![B, n₅]⟩, ⟨2, ![B, n₆]⟩] ⟨2, ![B, n]⟩ 1) :
    IsRows B t
      (concatenate ⟨2, ![N, n]⟩ 1 [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA)
      (concatenate ⟨2, ![B, n]⟩ 1 [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha) := by
  intro p j r hr
  have hjn := j.isLt
  by_cases c₁ : j.val < n₁
  · rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 0 (by simp) A₁ rfl 0 rfl r j ⟨j.val, c₁⟩ (Nat.zero_add _),
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 0 (by simp) a₁ rfl 0 rfl p j ⟨j.val, c₁⟩ (Nat.zero_add _)]
    exact H₁ p _ r hr
  by_cases c₂ : j.val < n₁ + n₂
  · have hb : j.val - n₁ < n₂ := by omega
    have he : n₁ + (j.val - n₁) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 1 (by simp) A₂ rfl n₁ rfl r j ⟨j.val - n₁, hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 1 (by simp) a₂ rfl n₁ rfl p j ⟨j.val - n₁, hb⟩ he]
    exact H₂ p _ r hr
  by_cases c₃ : j.val < n₁ + n₂ + n₃
  · have hb : j.val - (n₁ + n₂) < n₃ := by omega
    have he : n₁ + n₂ + (j.val - (n₁ + n₂)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 2 (by simp) A₃ rfl (n₁ + n₂) (by simp) r j ⟨j.val - (n₁ + n₂), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 2 (by simp) a₃ rfl (n₁ + n₂) (by simp) p j ⟨j.val - (n₁ + n₂), hb⟩ he]
    exact H₃ p _ r hr
  by_cases c₄ : j.val < n₁ + n₂ + n₃ + n₄
  · have hb : j.val - (n₁ + n₂ + n₃) < n₄ := by omega
    have he : n₁ + n₂ + n₃ + (j.val - (n₁ + n₂ + n₃)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 3 (by simp) A₄ rfl (n₁ + n₂ + n₃) (by simp; omega) r j ⟨j.val - (n₁ + n₂ + n₃), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 3 (by simp) a₄ rfl (n₁ + n₂ + n₃) (by simp; omega) p j ⟨j.val - (n₁ + n₂ + n₃), hb⟩ he]
    exact H₄ p _ r hr
  by_cases c₅ : j.val < n₁ + n₂ + n₃ + n₄ + n₅
  · have hb : j.val - (n₁ + n₂ + n₃ + n₄) < n₅ := by omega
    have he : n₁ + n₂ + n₃ + n₄ + (j.val - (n₁ + n₂ + n₃ + n₄)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 4 (by simp) A₅ rfl (n₁ + n₂ + n₃ + n₄) (by simp; omega) r j ⟨j.val - (n₁ + n₂ + n₃ + n₄), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 4 (by simp) a₅ rfl (n₁ + n₂ + n₃ + n₄) (by simp; omega) p j ⟨j.val - (n₁ + n₂ + n₃ + n₄), hb⟩ he]
    exact H₅ p _ r hr
  · have hb : j.val - (n₁ + n₂ + n₃ + n₄ + n₅) < n₆ := by omega
    have he : n₁ + n₂ + n₃ + n₄ + n₅ + (j.val - (n₁ + n₂ + n₃ + n₄ + n₅)) = j.val := by omega
    rw [concat_cols_apply [⟨⟨2, ![N, n₁]⟩, A₁⟩, ⟨⟨2, ![N, n₂]⟩, A₂⟩, ⟨⟨2, ![N, n₃]⟩, A₃⟩, ⟨⟨2, ![N, n₄]⟩, A₄⟩, ⟨⟨2, ![N, n₅]⟩, A₅⟩, ⟨⟨2, ![N, n₆]⟩, A₆⟩] hA 5 (by simp) A₆ rfl (n₁ + n₂ + n₃ + n₄ + n₅) (by simp; omega) r j ⟨j.val - (n₁ + n₂ + n₃ + n₄ + n₅), hb⟩ he,
      concat_cols_apply [⟨⟨2, ![B, n₁]⟩, a₁⟩, ⟨⟨2, ![B, n₂]⟩, a₂⟩, ⟨⟨2, ![B, n₃]⟩, a₃⟩, ⟨⟨2, ![B, n₄]⟩, a₄⟩, ⟨⟨2, ![B, n₅]⟩, a₅⟩, ⟨⟨2, ![B, n₆]⟩, a₆⟩] ha 5 (by simp) a₆ rfl (n₁ + n₂ + n₃ + n₄ + n₅) (by simp; omega) p j ⟨j.val - (n₁ + n₂ + n₃ + n₄ + n₅), hb⟩ he]
    exact H₆ p _ r hr

/-- One row broadcast over all rows: its row block is the same row broadcast over the block's rows. -/
theorem bias (b : (⟨1, ![n]⟩ : Shape).Idx → α) (h1 : (⟨1, ![n]⟩ : Shape).BroadcastsInDim ⟨2, ![1, n]⟩ ![1])
    (h2 : (⟨2, ![1, n]⟩ : Shape).BroadcastsInDim ⟨2, ![N, n]⟩ ![0, 1])
    (hc : (⟨1, ![n]⟩ : Shape).ShapeCasts ⟨2, ![1, n]⟩) (hb : (⟨2, ![1, n]⟩ : Shape).Broadcasts ⟨2, ![B, n]⟩) :
    IsRows B t (broadcastInDim ⟨2, ![N, n]⟩ ![0, 1] h2 (broadcastInDim ⟨2, ![1, n]⟩ ![1] h1 b))
      (broadcastTo ⟨2, ![B, n]⟩ (shapeCast ⟨2, ![1, n]⟩ b hc) hb) := by
  intro p j r _
  rw [broadcastTo_1b_ab_apply, shapeCast_a_1a_apply]
  refine Eq.symm ((broadcastInDim_apply ![0, 1] h2 _ (ix2 r j) (ix2 (0 : Fin 1) j) fun a => ?_).trans
    (broadcastInDim_apply ![1] h1 b (ix2 (0 : Fin 1) j) (ix1 j) fun a => ?_))
  · match a with
    | ⟨0, _⟩ => rfl
    | ⟨1, _⟩ =>
      show j.val = if n = 1 then 0 else j.val
      split
      · have := j.isLt; omega
      · rfl
  · match a with
    | ⟨0, _⟩ =>
      show j.val = if n = 1 then 0 else j.val
      split
      · have := j.isLt; omega
      · rfl

/-! ## Pointwise operations at the exact instance -/

section Arith
variable {φ : FTy} {A A' : FVec Ideal ⟨2, ![N, n]⟩ φ} {a a' : FVec Ideal ⟨2, ![B, n]⟩ φ}

/-- A constant splat: every entry is the constant's value, in the matrix and in the block. -/
theorem splat (φ : FTy) (c : BitVec φ.bits) (h : (⟨0, ![]⟩ : Shape).BroadcastsInDim ⟨2, ![N, n]⟩ ![]) :
    IsRows B t (broadcastInDim ⟨2, ![N, n]⟩ ![] h (constant (F := Ideal) ⟨0, ![]⟩ φ c))
      (broadcast ⟨2, ![B, n]⟩ (Scalar.ofBits (F := Ideal) φ c)) :=
  fun _ _ _ _ => rfl

/-- A change of float format is the identity on extended reals. -/
theorem trunc {ψ : FTy} (H : IsRows B t A a) (h : ψ.bits < φ.bits) : IsRows B t A (truncf ψ a h) :=
  fun p j r hr => H p j r hr

theorem add (H : IsRows B t A a) (H' : IsRows B t A' a') : IsRows B t (addf A A') (addf a a') := by
  intro p j r hr
  rw [addf_apply, addf_apply, H p j r hr, H' p j r hr]

theorem mul (H : IsRows B t A a) (H' : IsRows B t A' a') : IsRows B t (mulf A A') (mulf a a') := by
  intro p j r hr
  rw [mulf_apply, mulf_apply, H p j r hr, H' p j r hr]

theorem sub (H : IsRows B t A a) (H' : IsRows B t A' a') : IsRows B t (subf A A') (subf a a') := by
  intro p j r hr
  rw [subf_apply, subf_apply, H p j r hr, H' p j r hr]

theorem maxf (H : IsRows B t A a) (H' : IsRows B t A' a') : IsRows B t (maximumf A A') (maximumf a a') := by
  intro p j r hr
  rw [maximumf_apply, maximumf_apply, H p j r hr, H' p j r hr]

theorem minf (H : IsRows B t A a) (H' : IsRows B t A' a') : IsRows B t (minimumf A A') (minimumf a a') := by
  intro p j r hr
  rw [minimumf_apply, minimumf_apply, H p j r hr, H' p j r hr]

/-- The host's exponential and the kernel's are one function of an extended real. -/
theorem expf (H : IsRows B t A a) : IsRows B t (Host.exp A) (exp a) := by
  intro p j r hr
  show Ideal.exp (a (ix2 p j)) = Ideal.exp (A (ix2 r j))
  rw [H p j r hr]

/-- The host's hyperbolic tangent and the kernel's are one function of an extended real. -/
theorem tanhf (H : IsRows B t A a) : IsRows B t (Host.tanh A) (tanh a) := by
  intro p j r hr
  show Ideal.tanh (a (ix2 p j)) = Ideal.tanh (A (ix2 r j))
  rw [H p j r hr]

end Arith

/-- The word of the float 1 denotes the real 1. -/
theorem ofBits_one_f32 : Ideal.ofBits .f32 0x3F800000#32 = 1 := by
  simp [Ideal.ofBits, Ideal.ieee, -EReal.coe_mul]; norm_num

/-- The logistic function `1 / (1 + e⁻ˣ)`: spelt out with a negation, an exponential, a sum and a quotient on the whole
    matrix, and as one operation on the block; the two are one function of an extended real by definition. -/
theorem sigmoid {A : FVec Ideal ⟨2, ![N, n]⟩ .f32} {a : FVec Ideal ⟨2, ![B, n]⟩ .f32} (H : IsRows B t A a)
    (h1 h2 : (⟨0, ![]⟩ : Shape).BroadcastsInDim ⟨2, ![N, n]⟩ ![]) :
    IsRows B t
      (Host.divf (broadcastInDim ⟨2, ![N, n]⟩ ![] h1 (constant (F := Ideal) ⟨0, ![]⟩ .f32 0x3F800000#32))
        (addf (broadcastInDim ⟨2, ![N, n]⟩ ![] h2 (constant (F := Ideal) ⟨0, ![]⟩ .f32 0x3F800000#32)) (Host.exp (Host.negf A))))
      (logistic a) := by
  intro p j r hr
  show Ideal.logistic (a (ix2 p j))
    = Ideal.div (Ideal.ofBits .f32 0x3F800000#32) (Ideal.ofBits .f32 0x3F800000#32 + Ideal.exp (-(A (ix2 r j))))
  rw [ofBits_one_f32, H p j r hr]
  rfl

/-! ## A product with a matrix on the right -/

/-- The dimension numbers of a plain product `[M, K] × [K, N]`: the left operand contracted on its columns, the right on
    its rows, no batch axis. -/
def Plain {sl sr so : Shape} (D : DotDims sl sr so) (l1 l0 : Fin sl.rank) (r0 r1 : Fin sr.rank) : Prop :=
  D.lhsContracting = [l1] ∧ D.rhsContracting = [r0] ∧ D.lhsNonContracting = [l0] ∧ D.rhsNonContracting = [r1]
    ∧ D.lhsBatch = [] ∧ D.rhsBatch = []

/-- A plain product read at an entry is the sum over the shared axis. -/
theorem dot_plain_sum {M K N' : Nat} (D : DotDims ⟨2, ![M, K]⟩ ⟨2, ![K, N']⟩ ⟨2, ![M, N']⟩) (hD : Plain D 1 0 0 1)
    (L : (⟨2, ![M, K]⟩ : Shape).Idx → EReal) (R : (⟨2, ![K, N']⟩ : Shape).Idx → EReal) (r : Fin M) (c : Fin N') :
    ∑ k : D.contr.Idx, L (D.lhsIdx (ix2 r c) k) * R (D.rhsIdx (ix2 r c) k) = ∑ k : Fin K, L (ix2 r k) * R (ix2 k c) := by
  obtain ⟨lc, rc, ln, rn, lb, rb, wf⟩ := D
  obtain ⟨h1, h2, h3, h4, h5, h6⟩ := hD
  dsimp only at h1 h2 h3 h4 h5 h6
  subst h1 h2 h3 h4 h5 h6
  rw [← Equiv.sum_comp (contrEquiv1 (DotDims.mk [1] [0] [0] [1] [] [] wf) K rfl rfl).symm]
  refine Finset.sum_congr rfl fun k _ => ?_
  have hk := contrEquiv1_symm_val (DotDims.mk [1] [0] [0] [1] [] [] wf) K rfl rfl k
  have l0 : ∀ q, ((DotDims.mk [1] [0] [0] [1] [] [] wf).lhsIdx (ix2 r c) q 0).val = r.val := fun q => by
    unfold DotDims.lhsIdx
    rw [dif_neg (show ¬(0 : Fin 2) ∈ ([] : List (Fin 2)) by decide), dif_pos (show (0 : Fin 2) ∈ ([0] : List (Fin 2)) by decide)]
    rfl
  have r1 : ∀ q, ((DotDims.mk [1] [0] [0] [1] [] [] wf).rhsIdx (ix2 r c) q 1).val = c.val := fun q => by
    unfold DotDims.rhsIdx
    rw [dif_neg (show ¬(1 : Fin 2) ∈ ([] : List (Fin 2)) by decide), dif_pos (show (1 : Fin 2) ∈ ([1] : List (Fin 2)) by decide)]
    rfl
  have el : (DotDims.mk [1] [0] [0] [1] [] [] wf).lhsIdx (ix2 r c) ((contrEquiv1 (DotDims.mk [1] [0] [0] [1] [] [] wf) K rfl rfl).symm k)
      = ix2 r k := funext fun a => Fin.ext (by
    match a with
    | ⟨0, _⟩ => exact l0 _
    | ⟨1, _⟩ => exact ((DotDims.mk [1] [0] [0] [1] [] [] wf).lhsIdx_val_of_single rfl _ _).trans hk)
  have er : (DotDims.mk [1] [0] [0] [1] [] [] wf).rhsIdx (ix2 r c) ((contrEquiv1 (DotDims.mk [1] [0] [0] [1] [] [] wf) K rfl rfl).symm k)
      = ix2 k c := funext fun a => Fin.ext (by
    match a with
    | ⟨0, _⟩ => exact ((DotDims.mk [1] [0] [0] [1] [] [] wf).rhsIdx_val_of_single rfl _ _).trans hk
    | ⟨1, _⟩ => exact r1 _)
  rw [el, er]

/-- Rows of `L·R` depend on the same rows of `L` only: the host's product of the whole matrix against the kernel's
    product of the block into a zero accumulator, the right operand the same matrix on both sides. -/
theorem dot {K M : Nat} {φ₁ φ₂ : FTy} {L : FVec Ideal ⟨2, ![N, K]⟩ .f32} {l : FVec Ideal ⟨2, ![B, K]⟩ φ₁} (H : IsRows B t L l)
    (D : DotDims ⟨2, ![N, K]⟩ ⟨2, ![K, M]⟩ ⟨2, ![N, M]⟩) (d : DotDims ⟨2, ![B, K]⟩ ⟨2, ![K, M]⟩ ⟨2, ![B, M]⟩)
    (hD : Plain D 1 0 0 1) (hd : Plain d 1 0 0 1)
    (R : FVec Ideal ⟨2, ![K, M]⟩ .f32) (r : FVec Ideal ⟨2, ![K, M]⟩ φ₂) (hR : ∀ k j, r (ix2 k j) = R (ix2 k j)) :
    IsRows B t (Host.dotGeneral D none L R) (matmul d none l r (constant ⟨2, ![B, M]⟩ .f32 0x00000000#32)) := by
  intro p j r' hr
  simp only [Host.dotGeneral, matmul]
  rw [Ideal.matmul_constant_zero_apply, Ideal.dotGeneral_apply, dot_plain_sum d hd, dot_plain_sum D hD]
  exact Finset.sum_congr rfl fun k _ => by rw [H p k r' hr, hR]

end IsRows

end Cert.RowBlock

end
-- ==== Proof.LibRowBlockRead.lean ====
/-
  More on row blocks of a matrix (`IsRows`: the block's row `p` is the matrix's row `B·t + p`).

  * A block READ through an embedding of indices that sends row `p`, column `j` of the block to row `B·t + p`, column `j`
    of the matrix is the `t`-th row block (`of_emb`), and conversely a row block of `G` IS `G` read through such an
    embedding (`eq_read`): the two directions between "row block" and "block of an array as a tiled launch sees it".
  * A matrix used whole (one block, `B = N`, `t = 0`) is its own row block; so is anything equal to one.
  * A shape cast to the same shape changes nothing.
  * A sum of three terms does not depend on the order the last two are added in: `(x + y) + z = (x + z) + y` on the
    extended reals, whose addition is commutative and associative with no side condition.
-/
import proofs.«149418_j37460704756549_1_alg».proof.Proof.LibRowBlock

noncomputable section

namespace Cert.RowBlock

open Idealize.ShloMosaic Idealize.ShloMosaic.ValueIdx

namespace IsRows

variable {α : Type} {N n B t : Nat}

/-- A block whose entries are the matrix's entries at an embedded index, the embedding shifting rows by `B·t` and keeping
    columns, is the `t`-th row block. -/
theorem of_emb {A : (⟨2, ![N, n]⟩ : Shape).Idx → α} {a : (⟨2, ![B, n]⟩ : Shape).Idx → α}
    (emb : (⟨2, ![B, n]⟩ : Shape).Idx → (⟨2, ![N, n]⟩ : Shape).Idx) (ha : ∀ y, a y = A (emb y))
    (h0 : ∀ y, (emb y 0).val = B * t + (y 0).val) (h1 : ∀ y, (emb y 1).val = (y 1).val) : IsRows B t A a := by
  intro p j r hr
  rw [ha]
  refine congrArg A (funext fun b => Fin.ext ?_)
  match b with
  | ⟨0, _⟩ => exact (h0 _).trans hr.symm
  | ⟨1, _⟩ => exact h1 _

/-- A row block of `G` is `G` read through any embedding that shifts rows by `B·t` and keeps columns. -/
theorem eq_read {G : (⟨2, ![N, n]⟩ : Shape).Idx → α} {a : (⟨2, ![B, n]⟩ : Shape).Idx → α} (H : IsRows B t G a)
    (emb : (⟨2, ![B, n]⟩ : Shape).Idx → (⟨2, ![N, n]⟩ : Shape).Idx)
    (h0 : ∀ y, (emb y 0).val = B * t + (y 0).val) (h1 : ∀ y, (emb y 1).val = (y 1).val) : a = fun y => G (emb y) := by
  funext y
  obtain ⟨p, j, rfl⟩ : ∃ (p : Fin B) (j : Fin n), y = ix2 p j := ⟨y 0, y 1, eq_ix2 y⟩
  rw [H p j (emb (ix2 p j) 0) (h0 _)]
  refine congrArg G (funext fun b => Fin.ext ?_)
  match b with
  | ⟨0, _⟩ => rfl
  | ⟨1, _⟩ => exact ((h1 (ix2 p j)).symm : j.val = (emb (ix2 p j) 1).val)

/-- A matrix is its own (only) row block. -/
theorem whole (A : (⟨2, ![N, n]⟩ : Shape).Idx → α) : IsRows N 0 A A := by
  intro p j r hr
  refine congrArg A (funext fun b => Fin.ext ?_)
  match b with
  | ⟨0, _⟩ => show p.val = r.val; omega
  | ⟨1, _⟩ => rfl

/-- The block may be replaced by an equal one. -/
theorem congr_block {A : (⟨2, ![N, n]⟩ : Shape).Idx → α} {a a' : (⟨2, ![B, n]⟩ : Shape).Idx → α} (H : IsRows B t A a)
    (h : a' = a) : IsRows B t A a' := h ▸ H

/-- The matrix may be replaced by an equal one. -/
theorem congr_matrix {A A' : (⟨2, ![N, n]⟩ : Shape).Idx → α} {a : (⟨2, ![B, n]⟩ : Shape).Idx → α} (H : IsRows B t A a)
    (h : A' = A) : IsRows B t A' a := h ▸ H

/-- A shape cast of the block to its own shape is the block. -/
theorem cast_self {A : (⟨2, ![N, n]⟩ : Shape).Idx → α} {a : (⟨2, ![B, n]⟩ : Shape).Idx → α} (H : IsRows B t A a)
    (h : (⟨2, ![B, n]⟩ : Shape).ShapeCasts ⟨2, ![B, n]⟩) : IsRows B t A (shapeCast ⟨2, ![B, n]⟩ a h) := by
  rw [shapeCast_self]; exact H

section Arith
variable {φ : FTy} {A A' A'' : FVec Ideal ⟨2, ![N, n]⟩ φ} {a a' a'' : FVec Ideal ⟨2, ![B, n]⟩ φ}

/-- `(A + A') + A''` against `(a + a'') + a'`: the last two terms added in the other order. -/
theorem add_swap (H : IsRows B t A a) (H' : IsRows B t A' a') (H'' : IsRows B t A'' a'') :
    IsRows B t (addf (addf A A') A'') (addf (addf a a'') a') := by
  intro p j r hr
  rw [addf_apply, addf_apply, addf_apply, addf_apply, H p j r hr, H' p j r hr, H'' p j r hr]
  exact add_right_comm _ _ _

end Arith

end IsRows

end Cert.RowBlock

end
-- ==== Proof.PayRows.lean ====
/-
  The kernel body's result on a block of 2000 rows is those rows of the network's result.

  Every operation of the body treats rows independently: the products have the block on the left and a whole weight
  matrix on the right, the biases are one row added to every row, the rectifier is entrywise. So if the four feature
  blocks the body loads are rows `2000·t, …` of the aggregated messages and of the target features, what it stores is
  rows `2000·t, …` of `dense`. The body adds a relation's bias AFTER the root product, the host program before it:
  `(p + q) + b = (p + b) + q` on the extended reals, where addition is commutative and associative.
-/
import proofs.«149418_j37460704756549_1_alg».proof.Proof.Gen.KernelIdeal
import proofs.«149418_j37460704756549_1_alg».proof.Proof.Gen.KernelIdeal.Skeleton
import proofs.«149418_j37460704756549_1_alg».proof.Proof.Spec
import proofs.«149418_j37460704756549_1_alg».proof.Proof.LibRowBlockRead

noncomputable section

namespace Cert.Hetero

open Idealize.ShloMosaic Idealize.ShloMosaic.TcCoe Idealize.ShloMosaic.ValueIdx Cert.RowBlock
open Cert.KernelIdeal Cert.KernelIdeal.Gen

/-- The products are plain ones: rows of the left operand against columns of the right. -/
theorem plain_block : IsRows.Plain dot_S2000x256_S256x256_S2000x256_1_0_0_1_n_n 1 0 0 1 := ⟨rfl, rfl, rfl, rfl, rfl, rfl⟩
theorem plain_block_out : IsRows.Plain dot_S2000x256_S256x2_S2000x2_1_0_0_1_n_n 1 0 0 1 := ⟨rfl, rfl, rfl, rfl, rfl, rfl⟩
theorem plain_whole : IsRows.Plain Cert.ReferenceIdeal.dot_S50000x256_S256x256_S50000x256_1_0_0_1_n_n 1 0 0 1 :=
  ⟨rfl, rfl, rfl, rfl, rfl, rfl⟩
theorem plain_whole_out : IsRows.Plain Cert.ReferenceIdeal.dot_S50000x256_S256x2_S50000x2_1_0_0_1_n_n 1 0 0 1 :=
  ⟨rfl, rfl, rfl, rfl, rfl, rfl⟩

/-- A bias row as the body adds it to a block: the staged `1 × n` array, broadcast over the block's rows. -/
theorem bias_rows {t : Nat} (b : Bias) :
    IsRows 2000 t (biasRows b)
      (broadcastTo S2000x256 (shapeCast S1x256 (shapeCast S1x256 b shapeCasts_S256_S1x256) shapeCasts_S1x256_S1x256)
        broadcasts_S1x256_S2000x256) :=
  (IsRows.bias b Cert.ReferenceIdeal.Gen.bcast_S256_S1x256_1 Cert.ReferenceIdeal.Gen.bcast_S1x256_S50000x256_0_1
    shapeCasts_S256_S1x256 broadcasts_S1x256_S2000x256).congr_block (by rw [shapeCast_self])

/-- One relation on a block: the two products into zero accumulators, then the bias. -/
theorem conv_rows {t : Nat} {A X : Nodes} {ab xb : FVec Ideal S2000x256 .bf16}
    (Ha : IsRows 2000 t A ab) (Hx : IsRows 2000 t X xb) (wrel : Weight) (b : Bias) (wroot : Weight) :
    IsRows 2000 t (conv A X wrel b wroot)
      (addf (addf (matmul dot_S2000x256_S256x256_S2000x256_1_0_0_1_n_n none ab (truncf .bf16 wrel bitsLt_bf16_f32)
                    (constant S2000x256 .f32 0x00000000#32))
                  (matmul dot_S2000x256_S256x256_S2000x256_1_0_0_1_n_n none xb (truncf .bf16 wroot bitsLt_bf16_f32)
                    (constant S2000x256 .f32 0x00000000#32)))
        (broadcastTo S2000x256 (shapeCast S1x256 (shapeCast S1x256 b shapeCasts_S256_S1x256) shapeCasts_S1x256_S1x256)
          broadcasts_S1x256_S2000x256)) :=
  IsRows.add_swap (IsRows.dot Ha _ _ plain_whole plain_block wrel _ (fun _ _ => rfl)) (bias_rows b)
    (IsRows.dot Hx _ _ plain_whole plain_block wroot _ (fun _ _ => rfl))

/-- The body's stored value, from blocks that are rows `2000·t, …` of the four feature matrices, is rows `2000·t, …` of
    the network's result. -/
theorem pay_rows {t : Nat} {A₀ A₁ A₂ X : Nodes} {x₀ x₁ x₂ x₃ : FVec Ideal S2000x256 .f32}
    (H₀ : IsRows 2000 t A₀ x₀) (H₁ : IsRows 2000 t A₁ x₁) (H₂ : IsRows 2000 t A₂ x₂) (H₃ : IsRows 2000 t X x₃)
    (w₁₀ : Weight) (b₁₁ : Bias) (w₁₂ w₁₃ : Weight) (b₁₄ : Bias) (w₁₅ w₁₆ : Weight) (b₁₇ : Bias)
    (w₁₈ w₁₉ : Weight) (b₂₀ : Bias) (w₂₁ : FVec Ideal S256x2 .f32) (b₂₂ : FVec Ideal S2 .f32) :
    IsRows 2000 t (dense A₀ A₁ A₂ X w₁₀ b₁₁ w₁₂ w₁₃ b₁₄ w₁₅ w₁₆ b₁₇ w₁₈ w₁₉ b₂₀ w₂₁ b₂₂)
      (k0_pay1 (k0_pay2 x₃)
        (k0_pay3 x₃ x₀ w₁₀ w₁₂ (shapeCast S1x256 b₁₁ shapeCasts_S256_S1x256) x₁ w₁₃ w₁₅ (shapeCast S1x256 b₁₄ shapeCasts_S256_S1x256))
        (k0_pay4 x₂) w₁₆ w₁₈ (shapeCast S1x256 b₁₇ shapeCasts_S256_S1x256) w₁₉ (shapeCast S1x256 b₂₀ shapeCasts_S256_S1x256)
        w₂₁ (shapeCast S1x2 b₂₂ shapeCasts_S2_S1x2)) := by
  have Hx := H₃.trunc (ψ := .bf16) bitsLt_bf16_f32
  have C₀ := conv_rows ((H₀.cast_self shapeCasts_S2000x256_S2000x256).trunc bitsLt_bf16_f32) Hx w₁₀ b₁₁ w₁₂
  have C₁ := conv_rows ((H₁.cast_self shapeCasts_S2000x256_S2000x256).trunc bitsLt_bf16_f32) Hx w₁₃ b₁₄ w₁₅
  have C₂ := conv_rows ((H₂.cast_self shapeCasts_S2000x256_S2000x256).trunc bitsLt_bf16_f32) Hx w₁₆ b₁₇ w₁₈
  have Hh := ((C₀.add C₁).add C₂).maxf
    (IsRows.splat (B := 2000) (t := t) (N := 50000) (n := 256) .f32 0x00000000#32 Cert.ReferenceIdeal.Gen.bcast_S_S50000x256)
  have Hm := (IsRows.dot (Hh.trunc bitsLt_bf16_f32) _ _ plain_whole plain_block w₁₉ (truncf .bf16 w₁₉ bitsLt_bf16_f32)
    (fun _ _ => rfl)).add (bias_rows b₂₀)
  have Ho := (IsRows.dot (Hm.trunc bitsLt_bf16_f32) _ _ plain_whole_out plain_block_out w₂₁ (truncf .bf16 w₂₁ bitsLt_bf16_f32)
    (fun _ _ => rfl)).add
    ((IsRows.bias (B := 2000) (t := t) b₂₂ Cert.ReferenceIdeal.Gen.bcast_S2_S1x2_1 Cert.ReferenceIdeal.Gen.bcast_S1x2_S50000x2_0_1
      shapeCasts_S2_S1x2 broadcasts_S1x2_S2000x2).congr_block
      (show broadcastTo S2000x2 (shapeCast S1x2 (shapeCast S1x2 b₂₂ shapeCasts_S2_S1x2) shapeCasts_S1x2_S1x2) broadcasts_S1x2_S2000x2 = _ by
        rw [shapeCast_self]))
  exact Ho

end Cert.Hetero

end
-- ==== Proof.HostSide.lean ====
/-
  What the host operations in front of the kernel leave for it to read.

  Before the kernel is launched the program computes, for each relation, the aggregated messages (rows gathered along the
  edges' sources and summed into the edges' targets) and re-lays each bias vector as a `1 × n` array. The arrays
  the kernel's windows are cut from hold exactly these values of the program's arguments.
-/
import proofs.«149418_j37460704756549_1_alg».proof.Proof.Gen.KernelIdeal.Frame
import proofs.«149418_j37460704756549_1_alg».proof.Proof.Spec
import Idealize.ShloMosaic.Lib.StableHlo.Run

set_option maxRecDepth 16384

noncomputable section

namespace Cert.Hetero

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxHeartbeats 4000000 in
/-- The first relation's aggregated messages. -/
theorem v9_eq (c : Dev nD) :
    (V m c main_v9 : FVec Ideal S50000x256 .f32)
      = agg (m ((c : Thread nD τ).loc main_arg0)) (m ((c : Thread nD τ).loc main_arg4)) (m ((c : Thread nD τ).loc main_arg5)) := by
  dsimp only [Gen.V, Gen.hostOps0]
  after_results_simp
  rfl

set_option maxHeartbeats 4000000 in
/-- The second relation's. -/
theorem v19_eq (c : Dev nD) :
    (V m c main_v19 : FVec Ideal S50000x256 .f32)
      = agg (m ((c : Thread nD τ).loc main_arg1)) (m ((c : Thread nD τ).loc main_arg6)) (m ((c : Thread nD τ).loc main_arg7)) := by
  dsimp only [Gen.V, Gen.hostOps0]
  after_results_simp
  rfl

set_option maxHeartbeats 4000000 in
/-- The third relation's. -/
theorem v29_eq (c : Dev nD) :
    (V m c main_v29 : FVec Ideal S50000x256 .f32)
      = agg (m ((c : Thread nD τ).loc main_arg2)) (m ((c : Thread nD τ).loc main_arg8)) (m ((c : Thread nD τ).loc main_arg9)) := by
  dsimp only [Gen.V, Gen.hostOps0]
  after_results_simp
  rfl

/-- The bias vectors as `1 × n` arrays. -/
theorem v30_eq (c : Dev nD) :
    (V m c main_v30 : FVec Ideal S1x256 .f32) = shapeCast S1x256 (m ((c : Thread nD τ).loc main_arg11)) shapeCasts_S256_S1x256 := by
  dsimp only [Gen.V, Gen.hostOps0]
  after_results
  rfl

theorem v31_eq (c : Dev nD) :
    (V m c main_v31 : FVec Ideal S1x256 .f32) = shapeCast S1x256 (m ((c : Thread nD τ).loc main_arg14)) shapeCasts_S256_S1x256 := by
  dsimp only [Gen.V, Gen.hostOps0]
  after_results
  rfl

theorem v32_eq (c : Dev nD) :
    (V m c main_v32 : FVec Ideal S1x256 .f32) = shapeCast S1x256 (m ((c : Thread nD τ).loc main_arg17)) shapeCasts_S256_S1x256 := by
  dsimp only [Gen.V, Gen.hostOps0]
  after_results
  rfl

theorem v33_eq (c : Dev nD) :
    (V m c main_v33 : FVec Ideal S1x256 .f32) = shapeCast S1x256 (m ((c : Thread nD τ).loc main_arg20)) shapeCasts_S256_S1x256 := by
  dsimp only [Gen.V, Gen.hostOps0]
  after_results
  rfl

theorem v34_eq (c : Dev nD) :
    (V m c main_v34 : FVec Ideal S1x2 .f32) = shapeCast S1x2 (m ((c : Thread nD τ).loc main_arg22)) shapeCasts_S2_S1x2 := by
  dsimp only [Gen.V, Gen.hostOps0]
  after_results
  rfl

end Cert.Hetero

end
-- ==== Proof.IdxFacts.lean ====
/-
  The launch's index maps, decided over the 25 grid points: the four feature windows and the result window take block
  `t` along the rows at point `t`; every weight and bias window stays at block (0, 0).
-/
import proofs.«149418_j37460704756549_1_alg».proof.Proof.Gen.KernelIdeal
import Idealize.ShloMosaic.Lib.Decide

set_option maxRecDepth 16384
-- one decision at a time: each evaluates the index map at every point
set_option Elab.async false

namespace Cert.Hetero

open Idealize.ShloMosaic Cert.KernelIdeal Cert.KernelIdeal.Gen

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)
theorem idx16 : ∀ t : Fin cfg0.N, win0_16.index t (0 : Fin 2) = 0 ∧ win0_16.index t (1 : Fin 2) = 0 :=
  (by decide +kernel : ∀ t : Fin grid0.N, _)
theorem idx17 : ∀ t : Fin cfg0.N, win0_17.index t (0 : Fin 2) = t.val ∧ win0_17.index t (1 : Fin 2) = 0 :=
  (by decide +kernel : ∀ t : Fin grid0.N, _)

end Cert.Hetero
-- ==== Proof.Blocks.lean ====
/-
  The blocks the launch hands the body.

  The launch cuts the four feature arrays into 25 blocks of 2000 rows, point `t` of the grid getting block `t`: rows
  `2000·t, …, 2000·t + 1999`. Every weight and bias array is one block, the same at every point: the whole array.
-/
import proofs.«149418_j37460704756549_1_alg».proof.Proof.Gen.KernelIdeal.Value
import proofs.«149418_j37460704756549_1_alg».proof.Proof.PayRows
import proofs.«149418_j37460704756549_1_alg».proof.Proof.HostSide
import proofs.«149418_j37460704756549_1_alg».proof.Proof.IdxFacts

set_option maxRecDepth 16384
set_option Elab.async false

noncomputable section

namespace Cert.Hetero

open Idealize.ShloMosaic Idealize.ShloMosaic.TcCoe Idealize.ShloMosaic.ValueIdx Idealize.SL.Sem Cert.RowBlock
open Cert.KernelIdeal Cert.KernelIdeal.Gen
open Idealize.ShloMosaic.Pipeline (Dat)

variable (m : (ℓ : Loc nD τ sig) → Buf (Elt Ideal) ℓ) (ρ : Dev nD → PrngReg)

/-- An array read through an embedding that keeps both coordinates is the array. -/
theorem read_all {α : Type} {R n : Nat} (A : (⟨2, ![R, n]⟩ : Shape).Idx → α)
    (emb : (⟨2, ![R, n]⟩ : Shape).Idx → (⟨2, ![R, n]⟩ : Shape).Idx)
    (h0 : ∀ y, (emb y 0).val = (y 0).val) (h1 : ∀ y, (emb y 1).val = (y 1).val) : (fun y => A (emb y)) = A :=
  funext fun y => congrArg A (funext fun b => Fin.ext (by
    match b with
    | ⟨0, _⟩ => exact h0 y
    | ⟨1, _⟩ => exact h1 y))

/-! ## The feature windows: block `t` is rows `2000·t, …` of the window's array -/

theorem feat0 (c : Dev nD) (t : Fin cfg0.N) :
    IsRows 2000 t.val (V m c main_v9 : FVec Ideal S50000x256 .f32) (iblk m c 0 t : FVec Ideal S2000x256 .f32) := by
  obtain ⟨e0, e1⟩ := idx0 t
  refine IsRows.of_emb (((cfg0.win 0).blk t).view.emb) (fun y => rfl) (fun y => ?_) (fun y => ?_)
  · show win0_0.index t (0 : Fin 2) * 2000 + 1 * (y 0).val = 2000 * t.val + (y 0).val; omega
  · show win0_0.index t (1 : Fin 2) * 256 + 1 * (y 1).val = (y 1).val; omega

theorem feat1 (c : Dev nD) (t : Fin cfg0.N) :
    IsRows 2000 t.val (V m c main_v19 : FVec Ideal S50000x256 .f32) (iblk m c 1 t : FVec Ideal S2000x256 .f32) := by
  obtain ⟨e0, e1⟩ := idx1 t
  refine IsRows.of_emb (((cfg0.win 1).blk t).view.emb) (fun y => rfl) (fun y => ?_) (fun y => ?_)
  · show win0_1.index t (0 : Fin 2) * 2000 + 1 * (y 0).val = 2000 * t.val + (y 0).val; omega
  · show win0_1.index t (1 : Fin 2) * 256 + 1 * (y 1).val = (y 1).val; omega

theorem feat2 (c : Dev nD) (t : Fin cfg0.N) :
    IsRows 2000 t.val (V m c main_v29 : FVec Ideal S50000x256 .f32) (iblk m c 2 t : FVec Ideal S2000x256 .f32) := by
  obtain ⟨e0, e1⟩ := idx2 t
  refine IsRows.of_emb (((cfg0.win 2).blk t).view.emb) (fun y => rfl) (fun y => ?_) (fun y => ?_)
  · show win0_2.index t (0 : Fin 2) * 2000 + 1 * (y 0).val = 2000 * t.val + (y 0).val; omega
  · show win0_2.index t (1 : Fin 2) * 256 + 1 * (y 1).val = (y 1).val; omega

theorem feat3 (c : Dev nD) (t : Fin cfg0.N) :
    IsRows 2000 t.val (V m c main_arg3 : FVec Ideal S50000x256 .f32) (iblk m c 3 t : FVec Ideal S2000x256 .f32) := by
  obtain ⟨e0, e1⟩ := idx3 t
  refine IsRows.of_emb (((cfg0.win 3).blk t).view.emb) (fun y => rfl) (fun y => ?_) (fun y => ?_)
  · show win0_3.index t (0 : Fin 2) * 2000 + 1 * (y 0).val = 2000 * t.val + (y 0).val; omega
  · show win0_3.index t (1 : Fin 2) * 256 + 1 * (y 1).val = (y 1).val; omega

/-! ## The weight and bias windows: the one block is the whole array -/

theorem whole4 (c : Dev nD) (t : Fin cfg0.N) : (iblk m c 4 t : FVec Ideal S256x256 .f32) = V m c main_arg10 := by
  obtain ⟨e0, e1⟩ := idx4 t
  refine read_all (V m c main_arg10 : FVec Ideal S256x256 .f32) (((cfg0.win 4).blk t).view.emb) (fun y => ?_) (fun y => ?_)
  · show win0_4.index t (0 : Fin 2) * 256 + 1 * (y 0).val = (y 0).val; omega
  · show win0_4.index t (1 : Fin 2) * 256 + 1 * (y 1).val = (y 1).val; omega

theorem whole5 (c : Dev nD) (t : Fin cfg0.N) : (iblk m c 5 t : FVec Ideal S1x256 .f32) = V m c main_v30 := by
  obtain ⟨e0, e1⟩ := idx5 t
  refine read_all (V m c main_v30 : FVec Ideal S1x256 .f32) (((cfg0.win 5).blk t).view.emb) (fun y => ?_) (fun y => ?_)
  · show win0_5.index t (0 : Fin 2) * 1 + 1 * (y 0).val = (y 0).val; omega
  · show win0_5.index t (1 : Fin 2) * 256 + 1 * (y 1).val = (y 1).val; omega

theorem whole6 (c : Dev nD) (t : Fin cfg0.N) : (iblk m c 6 t : FVec Ideal S256x256 .f32) = V m c main_arg12 := by
  obtain ⟨e0, e1⟩ := idx6 t
  refine read_all (V m c main_arg12 : FVec Ideal S256x256 .f32) (((cfg0.win 6).blk t).view.emb) (fun y => ?_) (fun y => ?_)
  · show win0_6.index t (0 : Fin 2) * 256 + 1 * (y 0).val = (y 0).val; omega
  · show win0_6.index t (1 : Fin 2) * 256 + 1 * (y 1).val = (y 1).val; omega

theorem whole7 (c : Dev nD) (t : Fin cfg0.N) : (iblk m c 7 t : FVec Ideal S256x256 .f32) = V m c main_arg13 := by
  obtain ⟨e0, e1⟩ := idx7 t
  refine read_all (V m c main_arg13 : FVec Ideal S256x256 .f32) (((cfg0.win 7).blk t).view.emb) (fun y => ?_) (fun y => ?_)
  · show win0_7.index t (0 : Fin 2) * 256 + 1 * (y 0).val = (y 0).val; omega
  · show win0_7.index t (1 : Fin 2) * 256 + 1 * (y 1).val = (y 1).val; omega

theorem whole8 (c : Dev nD) (t : Fin cfg0.N) : (iblk m c 8 t : FVec Ideal S1x256 .f32) = V m c main_v31 := by
  obtain ⟨e0, e1⟩ := idx8 t
  refine read_all (V m c main_v31 : FVec Ideal S1x256 .f32) (((cfg0.win 8).blk t).view.emb) (fun y => ?_) (fun y => ?_)
  · show win0_8.index t (0 : Fin 2) * 1 + 1 * (y 0).val = (y 0).val; omega
  · show win0_8.index t (1 : Fin 2) * 256 + 1 * (y 1).val = (y 1).val; omega

theorem whole9 (c : Dev nD) (t : Fin cfg0.N) : (iblk m c 9 t : FVec Ideal S256x256 .f32) = V m c main_arg15 := by
  obtain ⟨e0, e1⟩ := idx9 t
  refine read_all (V m c main_arg15 : FVec Ideal S256x256 .f32) (((cfg0.win 9).blk t).view.emb) (fun y => ?_) (fun y => ?_)
  · show win0_9.index t (0 : Fin 2) * 256 + 1 * (y 0).val = (y 0).val; omega
  · show win0_9.index t (1 : Fin 2) * 256 + 1 * (y 1).val = (y 1).val; omega

theorem whole10 (c : Dev nD) (t : Fin cfg0.N) : (iblk m c 10 t : FVec Ideal S256x256 .f32) = V m c main_arg16 := by
  obtain ⟨e0, e1⟩ := idx10 t
  refine read_all (V m c main_arg16 : FVec Ideal S256x256 .f32) (((cfg0.win 10).blk t).view.emb) (fun y => ?_) (fun y => ?_)
  · show win0_10.index t (0 : Fin 2) * 256 + 1 * (y 0).val = (y 0).val; omega
  · show win0_10.index t (1 : Fin 2) * 256 + 1 * (y 1).val = (y 1).val; omega

theorem whole11 (c : Dev nD) (t : Fin cfg0.N) : (iblk m c 11 t : FVec Ideal S1x256 .f32) = V m c main_v32 := by
  obtain ⟨e0, e1⟩ := idx11 t
  refine read_all (V m c main_v32 : FVec Ideal S1x256 .f32) (((cfg0.win 11).blk t).view.emb) (fun y => ?_) (fun y => ?_)
  · show win0_11.index t (0 : Fin 2) * 1 + 1 * (y 0).val = (y 0).val; omega
  · show win0_11.index t (1 : Fin 2) * 256 + 1 * (y 1).val = (y 1).val; omega

theorem whole12 (c : Dev nD) (t : Fin cfg0.N) : (iblk m c 12 t : FVec Ideal S256x256 .f32) = V m c main_arg18 := by
  obtain ⟨e0, e1⟩ := idx12 t
  refine read_all (V m c main_arg18 : FVec Ideal S256x256 .f32) (((cfg0.win 12).blk t).view.emb) (fun y => ?_) (fun y => ?_)
  · show win0_12.index t (0 : Fin 2) * 256 + 1 * (y 0).val = (y 0).val; omega
  · show win0_12.index t (1 : Fin 2) * 256 + 1 * (y 1).val = (y 1).val; omega

theorem whole13 (c : Dev nD) (t : Fin cfg0.N) : (iblk m c 13 t : FVec Ideal S256x256 .f32) = V m c main_arg19 := by
  obtain ⟨e0, e1⟩ := idx13 t
  refine read_all (V m c main_arg19 : FVec Ideal S256x256 .f32) (((cfg0.win 13).blk t).view.emb) (fun y => ?_) (fun y => ?_)
  · show win0_13.index t (0 : Fin 2) * 256 + 1 * (y 0).val = (y 0).val; omega
  · show win0_13.index t (1 : Fin 2) * 256 + 1 * (y 1).val = (y 1).val; omega

theorem whole14 (c : Dev nD) (t : Fin cfg0.N) : (iblk m c 14 t : FVec Ideal S1x256 .f32) = V m c main_v33 := by
  obtain ⟨e0, e1⟩ := idx14 t
  refine read_all (V m c main_v33 : FVec Ideal S1x256 .f32) (((cfg0.win 14).blk t).view.emb) (fun y => ?_) (fun y => ?_)
  · show win0_14.index t (0 : Fin 2) * 1 + 1 * (y 0).val = (y 0).val; omega
  · show win0_14.index t (1 : Fin 2) * 256 + 1 * (y 1).val = (y 1).val; omega

theorem whole15 (c : Dev nD) (t : Fin cfg0.N) : (iblk m c 15 t : FVec Ideal S256x2 .f32) = V m c main_arg21 := by
  obtain ⟨e0, e1⟩ := idx15 t
  refine read_all (V m c main_arg21 : FVec Ideal S256x2 .f32) (((cfg0.win 15).blk t).view.emb) (fun y => ?_) (fun y => ?_)
  · show win0_15.index t (0 : Fin 2) * 256 + 1 * (y 0).val = (y 0).val; omega
  · show win0_15.index t (1 : Fin 2) * 2 + 1 * (y 1).val = (y 1).val; omega

theorem whole16 (c : Dev nD) (t : Fin cfg0.N) : (iblk m c 16 t : FVec Ideal S1x2 .f32) = V m c main_v34 := by
  obtain ⟨e0, e1⟩ := idx16 t
  refine read_all (V m c main_v34 : FVec Ideal S1x2 .f32) (((cfg0.win 16).blk t).view.emb) (fun y => ?_) (fun y => ?_)
  · show win0_16.index t (0 : Fin 2) * 1 + 1 * (y 0).val = (y 0).val; omega
  · show win0_16.index t (1 : Fin 2) * 2 + 1 * (y 1).val = (y 1).val; omega

end Cert.Hetero

end
-- ==== Proof.Final.lean ====
/-
  From the blocks to the result array.

  At point `t` the body computes, and the launch writes back, rows `2000·t, …, 2000·t + 1999` of the network's result
  (the body's value on a block is those rows of the result, and the feature blocks it is handed are those rows of the
  feature arrays). The 25 blocks tile the result array — row `r` lies in block `r / 2000` —, which therefore ends
  holding the network's result.
-/
import proofs.«149418_j37460704756549_1_alg».proof.Proof.Blocks

set_option maxRecDepth 16384
set_option Elab.async false

noncomputable section

namespace Cert.Hetero

open Idealize.ShloMosaic Idealize.ShloMosaic.TcCoe Idealize.ShloMosaic.ValueIdx Idealize.SL.Sem Cert.RowBlock
open Cert.KernelIdeal Cert.KernelIdeal.Gen
open Idealize.ShloMosaic.Pipeline (Dat)

variable (m : (ℓ : Loc nD τ sig) → Buf (Elt Ideal) ℓ) (ρ : Dev nD → PrngReg)

/-! ## The result -/

/-- The network's result from the program's arguments. -/
def result (c : Dev nD) : FVec Ideal S50000x2 .f32 :=
  dense (agg (m ((c : Thread nD τ).loc main_arg0)) (m ((c : Thread nD τ).loc main_arg4)) (m ((c : Thread nD τ).loc main_arg5))) (agg (m ((c : Thread nD τ).loc main_arg1)) (m ((c : Thread nD τ).loc main_arg6)) (m ((c : Thread nD τ).loc main_arg7))) (agg (m ((c : Thread nD τ).loc main_arg2)) (m ((c : Thread nD τ).loc main_arg8)) (m ((c : Thread nD τ).loc main_arg9))) (m ((c : Thread nD τ).loc main_arg3))
    (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
    (m ((c : Thread nD τ).loc main_arg19)) (m ((c : Thread nD τ).loc main_arg20)) (m ((c : Thread nD τ).loc main_arg21)) (m ((c : Thread nD τ).loc main_arg22))

theorem hz : (![0, 0] : Fin 2 → Nat) = fun _ => 0 := funext fun a => by fin_cases a <;> rfl

/-- The body's value at point `t`, from the blocks it is handed, is the result read through block `t`. -/
theorem pay_eq (c : Dev nD) (t : Fin cfg0.N) :
    k0_pay1 (k0_pay2 (iblk m c 3 t : FVec Ideal S2000x256 .f32))
        (k0_pay3 (iblk m c 3 t : FVec Ideal S2000x256 .f32) (iblk m c 0 t : FVec Ideal S2000x256 .f32) (m ((c : Thread nD τ).loc main_arg10)) (m ((c : Thread nD τ).loc main_arg12))
          (shapeCast S1x256 (m ((c : Thread nD τ).loc main_arg11)) shapeCasts_S256_S1x256) (iblk m c 1 t : FVec Ideal S2000x256 .f32) (m ((c : Thread nD τ).loc main_arg13)) (m ((c : Thread nD τ).loc main_arg15))
          (shapeCast S1x256 (m ((c : Thread nD τ).loc main_arg14)) shapeCasts_S256_S1x256))
        (k0_pay4 (iblk m c 2 t : FVec Ideal S2000x256 .f32)) (m ((c : Thread nD τ).loc main_arg16)) (m ((c : Thread nD τ).loc main_arg18))
        (shapeCast S1x256 (m ((c : Thread nD τ).loc main_arg17)) shapeCasts_S256_S1x256) (m ((c : Thread nD τ).loc main_arg19)) (shapeCast S1x256 (m ((c : Thread nD τ).loc main_arg20)) shapeCasts_S256_S1x256)
        (m ((c : Thread nD τ).loc main_arg21)) (shapeCast S1x2 (m ((c : Thread nD τ).loc main_arg22)) shapeCasts_S2_S1x2)
      = fun y => result m c (((cfg0.win 17).blk t).view.emb y) := by
  obtain ⟨e0, e1⟩ := idx17 t
  refine (pay_rows (t := t.val) ((feat0 m c t).congr_matrix (v9_eq m c).symm) ((feat1 m c t).congr_matrix (v19_eq m c).symm)
    ((feat2 m c t).congr_matrix (v29_eq m c).symm) ((feat3 m c t).congr_matrix (V_main_arg3 m c).symm)
    (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
    (m ((c : Thread nD τ).loc main_arg19)) (m ((c : Thread nD τ).loc main_arg20)) (m ((c : Thread nD τ).loc main_arg21)) (m ((c : Thread nD τ).loc main_arg22))).eq_read (((cfg0.win 17).blk t).view.emb) (fun y => ?_) (fun y => ?_)
  · show win0_17.index t (0 : Fin 2) * 2000 + 1 * (y 0).val = 2000 * t.val + (y 0).val; omega
  · show win0_17.index t (1 : Fin 2) * 2 + 1 * (y 1).val = (y 1).val; omega

/-- What point `t` writes back is block `t` of the result. -/
theorem flushed_eq (c : Dev nD) (t : Fin cfg0.N) :
    (dats m 0 c).flushed 17 t = ((cfg0.win 17).blk t).view.read (Elt Ideal) (result m c) := by
  rw [Cert.KernelIdeal.Value.flushed17]
  unfold out0_17
  rw [View.canon_unit_zero hz]
  simp only [View.ld_unit_zero (S := S2000x256) hz, View.ld_unit_zero (S := S256x256) hz, View.ld_unit_zero (S := S1x256) hz,
    View.ld_unit_zero (S := S256x2) hz, View.ld_unit_zero (S := S1x2) hz]
  rw [whole4, whole5, whole6, whole7, whole8, whole9, whole10, whole11, whole12, whole13, whole14, whole15, whole16,
    v30_eq, v31_eq, v32_eq, v33_eq, v34_eq, V_main_arg10, V_main_arg12, V_main_arg13, V_main_arg15, V_main_arg16,
    V_main_arg18, V_main_arg19, V_main_arg21]
  funext y
  exact congrFun (pay_eq m c t) y

/-- An index of the result array is in point `t`'s block iff its row is one of that block's. -/
theorem mem_blk (t : Fin cfg0.N) (i : S50000x2.Idx) :
    i ∈ ((cfg0.win 17).blk t).view.set ↔ ∀ a : Fin 2, win0_17.index t a * S2000x2.size a ≤ (i a).val ∧ (i a).val < win0_17.index t a * S2000x2.size a + S2000x2.size a := by
  show i ∈ ((View.whole main_v35).slice (win0_17.rect t)).set ↔ _
  rw [View.set_slice_whole, Rect.mem_set_unit]
  exact Iff.rfl

/-- The result array after the run holds the network's result: row `r` is written at point `r / 2000`. -/
theorem final (c : Dev nD) : (dats m 0 c).arrAt 17 cfg0.N = result m c :=
  (dats m 0 c).arrAt_eq_of_cover 17 (result m c) (fun t _ => flushed_eq m c t) fun i => by
    have hi0 : (i 0).val < 50000 := (i 0).isLt
    have hi1 : (i 1).val < 2 := (i 1).isLt
    have hN : cfg0.N = 25 := N_0
    refine ⟨⟨(i 0).val / 2000, by rw [hN]; omega⟩, flush0_17 _, ?_⟩
    rw [mem_blk]
    obtain ⟨e0, e1⟩ := idx17 ⟨(i 0).val / 2000, by rw [hN]; omega⟩
    intro a
    match a with
    | ⟨0, _⟩ =>
      show win0_17.index _ (0 : Fin 2) * 2000 ≤ (i 0).val ∧ (i 0).val < win0_17.index _ (0 : Fin 2) * 2000 + 2000
      rw [e0]; show (i 0).val / 2000 * 2000 ≤ (i 0).val ∧ (i 0).val < (i 0).val / 2000 * 2000 + 2000; omega
    | ⟨1, _⟩ =>
      show win0_17.index _ (1 : Fin 2) * 2 ≤ (i 1).val ∧ (i 1).val < win0_17.index _ (1 : Fin 2) * 2 + 2
      rw [e1]; omega

/-- The kernel's run, read: the result array at the network's result, the arguments unchanged. -/
theorem run : θ_run defs (onTc (τ := τ) (main (F := Ideal))) ⟨m, fun _ => 0, ρ⟩ fun r => ∀ c : Dev nD,
      r.2.mem ((c : Thread nD τ).loc main_v35) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22) :=
  (θ_run defs _ _).mono (fun r h c => ⟨(h c).1.trans (final m c), (h c).2⟩) (Cert.KernelIdeal.Value.run_blocks m ρ)

end Cert.Hetero

end
-- ==== Proof.RefSide.lean ====
/-
  The host program's result is the network's result: its composed term of the arguments is `dense` of the three
  aggregated messages, read off term for term.
-/
import proofs.«149418_j37460704756549_1_alg».proof.Proof.Gen.ReferenceIdeal.Run
import proofs.«149418_j37460704756549_1_alg».proof.Proof.Spec

set_option maxRecDepth 16384

noncomputable section

namespace Cert.Hetero

open Idealize.ShloMosaic Idealize.ShloMosaic.TcCoe Idealize.SL.Sem
open Cert.ReferenceIdeal Cert.ReferenceIdeal.Gen

theorem ref_result (m : (ℓ : Loc nD τ sig) → Buf (Elt Ideal) ℓ) (c : Dev nD) :
    Cert.ReferenceIdeal.Value.res_main_v58 (F := Ideal) m c
      = dense (agg (m ((c.tc : Thread nD τ).loc main_arg0)) (m ((c.tc : Thread nD τ).loc main_arg4)) (m ((c.tc : Thread nD τ).loc main_arg5))) (agg (m ((c.tc : Thread nD τ).loc main_arg1)) (m ((c.tc : Thread nD τ).loc main_arg6)) (m ((c.tc : Thread nD τ).loc main_arg7))) (agg (m ((c.tc : Thread nD τ).loc main_arg2)) (m ((c.tc : Thread nD τ).loc main_arg8)) (m ((c.tc : Thread nD τ).loc main_arg9))) (m ((c.tc : Thread nD τ).loc main_arg3))
          (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
          (m ((c.tc : Thread nD τ).loc main_arg19)) (m ((c.tc : Thread nD τ).loc main_arg20)) (m ((c.tc : Thread nD τ).loc main_arg21)) (m ((c.tc : Thread nD τ).loc main_arg22)) := by
  unfold Cert.ReferenceIdeal.Value.res_main_v58
  rfl

end Cert.Hetero

end
-- ==== Proof.lean ====
/-
  A heterogeneous graph network on 50000 target nodes: messages from three node types are summed along the edges, each
  relation applies `a · W_rel + b_rel + x_tgt · W_root`, the three are added and rectified, and two affine layers
  classify every node. The kernel leaves the irregular edge sums to the host and fuses the dense chain into one launch
  over 25 blocks of 2000 rows; the reference is the same network on whole matrices.

  Over the extended reals the two agree with no side condition: a change of float format is the identity, every
  product has its whole contraction inside one block row (so a block of the product is the product of the block), and
  the only re-ordering is `(p + q) + b = (p + b) + q`. The modules: `Spec` (the network as one function, in the host's
  spelling), `LibRowBlock` / `LibRowBlockRead` (row blocks under row-wise operations), `PayRows` (the body's value
  on a block), `HostSide` (what the host operations hand the kernel), `IdxFacts` / `Blocks` (the launch's blocks), `Final` (blocks to the whole result array),
  `RefSide` (the reference's term is the network).
-/
import proofs.«149418_j37460704756549_1_alg».proof.Defs
import proofs.«149418_j37460704756549_1_alg».proof.Proof.Gen.Kernel
import proofs.«149418_j37460704756549_1_alg».proof.Proof.Gen.Kernel.Frame
import proofs.«149418_j37460704756549_1_alg».proof.Proof.Gen.KernelIdeal
import proofs.«149418_j37460704756549_1_alg».proof.Proof.Gen.KernelIdeal.Frame
import proofs.«149418_j37460704756549_1_alg».proof.Proof.Gen.ReferenceIdeal
import proofs.«149418_j37460704756549_1_alg».proof.Proof.Gen.Pre_finite_inputs
import proofs.«149418_j37460704756549_1_alg».proof.Proof.Gen.ReferenceIdeal.Run
import proofs.«149418_j37460704756549_1_alg».proof.Proof.Final
import proofs.«149418_j37460704756549_1_alg».proof.Proof.RefSide
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference has no kernel: its frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the network's result of their arguments, and the arguments agree. -/
theorem algebraic : Cert.algebraic_KernelIdeal_ReferenceIdeal := by
  intro m ρ m' ρ' _ hagree
  refine ⟨fun c => Cert.Hetero.result m c, Cert.Hetero.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18, h19, h20, h21, h22⟩ := hagree c
  rw [Cert.Hetero.ref_result, h0, h1, h2, h3, h4, h5, h6, h7, h8, h9, h10, h11, h12, h13, h14, h15, h16, h17, h18, h19, h20,
    h21, h22]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
